-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x4 : Shape := ⟨2, ![262144, 4]⟩
abbrev S262144x64 : Shape := ⟨2, ![262144, 64]⟩
abbrev S384 : Shape := ⟨1, ![384]⟩
abbrev S64 : Shape := ⟨1, ![64]⟩
abbrev S_ : Shape := ⟨0, ![]⟩

class Facts : Prop where
  bcast_S_S262144x4 : S_.BroadcastsInDim S262144x4 (![] : Fin 0 → Fin S262144x4.rank)
  reducesTo_S262144x4_S_d0_1 : S262144x4.ReducesTo [0, 1] S_
  h_S_ : 0 < S_.numel
  bcast_S_S262144x64 : S_.BroadcastsInDim S262144x64 (![] : Fin 0 → Fin S262144x64.rank)
  reducesTo_S262144x64_S_d0_1 : S262144x64.ReducesTo [0, 1] S_
  bcast_S_S384 : S_.BroadcastsInDim S384 (![] : Fin 0 → Fin S384.rank)
  reducesTo_S384_S_d0 : S384.ReducesTo [0] S_
  bcast_S_S64 : S_.BroadcastsInDim S64 (![] : Fin 0 → Fin S64.rank)
  reducesTo_S64_S_d0 : S64.ReducesTo [0] S_

variable [Facts]

def fn_part2 {F : FTy → Type} [FloatOps F] (main_arg6 : IVec S384 32) (main_v30 : IVec S_ 1) (main_v32 : IVec S384 1) (main_c_12 : IVec S_ 32) : IVec S_ 1 :=
  let main_v33 : IVec S384 32 := broadcastInDim S384 ![] bcast_S_S384 main_c_12
  let main_v34 : IVec S384 1 := cmpi .slt main_arg6 main_v33
  let main_v35 : IVec S384 1 := andi main_v32 main_v34
  let main_c_13 : IVec S_ 1 := constantI S_ 1 1#1
  let main_v36 : IVec S_ 1 := (fun x v => Host.reduce IntOp.andi x v reducesTo_S384_S_d0 h_S_) main_v35 main_c_13
  let main_v37 : IVec S_ 1 := andi main_v30 main_v36
  main_v37

def fn_part1 {F : FTy → Type} [FloatOps F] (main_arg4 : FVec F S64 .f32) (main_arg5 : IVec S384 32) (main_arg6 : IVec S384 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 4294967228#32
  let main_v24 : IVec S384 32 := broadcastInDim S384 ![] bcast_S_S384 main_c_8
  let main_v25 : IVec S384 1 := cmpi .sge main_arg5 main_v24
  let main_c_9 : IVec S_ 32 := constantI S_ 32 68#32
  let main_v26 : IVec S384 32 := broadcastInDim S384 ![] bcast_S_S384 main_c_9
  let main_v27 : IVec S384 1 := cmpi .slt main_arg5 main_v26
  let main_v28 : IVec S384 1 := andi main_v25 main_v27
  let main_c_10 : IVec S_ 1 := constantI S_ 1 1#1
  let main_v29 : IVec S_ 1 := (fun x v => Host.reduce IntOp.andi x v reducesTo_S384_S_d0 h_S_) main_v28 main_c_10
  let main_v30 : IVec S_ 1 := andi main_v23 main_v29
  let main_c_11 : IVec S_ 32 := constantI S_ 32 0#32
  let main_v31 : IVec S384 32 := broadcastInDim S384 ![] bcast_S_S384 main_c_11
  let main_v32 : IVec S384 1 := cmpi .sge main_arg6 main_v31
  let main_c_12 : IVec S_ 32 := constantI S_ 32 64#32
  fn_part2 (F := F) main_arg6 main_v30 main_v32 main_c_12

def fn {F : FTy → Type} [FloatOps F] (main_arg0 : FVec F S262144x4 .f32) (main_arg1 : FVec F S262144x64 .f32) (main_arg2 : FVec F S384 .f32) (main_arg3 : FVec F S64 .f32) (main_arg4 : FVec F S64 .f32) (main_arg5 : IVec S384 32) (main_arg6 : IVec S384 32) (main_arg7 : IVec S64 32) : IVec S_ 1 :=
  let main_v0 : FVec F S262144x4 .f32 := Host.absf main_arg0
  let main_cst : FVec F S_ .f32 := constant S_ .f32 0x7F800000#32
  let main_v1 : FVec F S262144x4 .f32 := broadcastInDim S262144x4 ![] bcast_S_S262144x4 main_cst
  let main_v2 : IVec S262144x4 1 := cmpf .olt main_v0 main_v1
  let main_c : IVec S_ 1 := constantI S_ 1 1#1
  let main_v3 : IVec S_ 1 := (fun x v => Host.reduce IntOp.andi x v reducesTo_S262144x4_S_d0_1 h_S_) main_v2 main_c
  let main_v4 : FVec F S262144x64 .f32 := Host.absf main_arg1
  let main_cst_0 : FVec F S_ .f32 := constant S_ .f32 0x7F800000#32
  let main_v5 : FVec F S262144x64 .f32 := broadcastInDim S262144x64 ![] bcast_S_S262144x64 main_cst_0
  let main_v6 : IVec S262144x64 1 := cmpf .olt main_v4 main_v5
  let main_c_1 : IVec S_ 1 := constantI S_ 1 1#1
  let main_v7 : IVec S_ 1 := (fun x v => Host.reduce IntOp.andi x v reducesTo_S262144x64_S_d0_1 h_S_) main_v6 main_c_1
  let main_v8 : IVec S_ 1 := andi main_v3 main_v7
  let main_v9 : FVec F S384 .f32 := Host.absf main_arg2
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S262144x4 : Shape := ⟨2, ![262144, 4]⟩
abbrev S262144x64 : Shape := ⟨2, ![262144, 64]⟩
abbrev S384 : Shape := ⟨1, ![384]⟩
abbrev S64 : Shape := ⟨1, ![64]⟩
abbrev S_ : Shape := ⟨0, ![]⟩
abbrev S68x64 : Shape := ⟨2, ![68, 64]⟩
abbrev S384x1 : Shape := ⟨2, ![384, 1]⟩
abbrev S384x2 : Shape := ⟨2, ![384, 2]⟩
abbrev S4x64 : Shape := ⟨2, ![4, 64]⟩
abbrev S64x64 : Shape := ⟨2, ![64, 64]⟩
abbrev S1x64 : Shape := ⟨2, ![1, 64]⟩
abbrev S8192x4 : Shape := ⟨2, ![8192, 4]⟩
abbrev S8192x64 : Shape := ⟨2, ![8192, 64]⟩

abbrev nBuf : Space → Nat
  | .hbm => 35
  | .vmem => 13
  | .smem => 0
  | _ => 0

abbrev bufTy : (tb : Table) → Fin (tcTables nBuf tb) → BufTy
  | .hbm, ⟨0, _⟩ => ⟨S262144x4, .f32⟩
  | .hbm, ⟨1, _⟩ => ⟨S262144x64, .f32⟩
  | .hbm, ⟨2, _⟩ => ⟨S384, .f32⟩
  | .hbm, ⟨3, _⟩ => ⟨S64, .f32⟩
  | .hbm, ⟨4, _⟩ => ⟨S64, .f32⟩
  | .hbm, ⟨5, _⟩ => ⟨S384, .i32⟩
  | .hbm, ⟨6, _⟩ => ⟨S384, .i32⟩
  | .hbm, ⟨7, _⟩ => ⟨S64, .i32⟩
  | .hbm, ⟨8, _⟩ => ⟨S_, .f32⟩
  | .hbm, ⟨9, _⟩ => ⟨S68x64, .f32⟩
  | .hbm, ⟨10, _⟩ => ⟨S_, .i32⟩
  | .hbm, ⟨11, _⟩ => ⟨S384, .i32⟩
  | .hbm, ⟨12, _⟩ => ⟨S384, .i1⟩
  | .hbm, ⟨13, _⟩ => ⟨S_, .i32⟩
  | .hbm, ⟨14, _⟩ => ⟨S384, .i32⟩
  | .hbm, ⟨15, _⟩ => ⟨S384, .i32⟩
  | .hbm, ⟨16, _⟩ => ⟨S384, .i32⟩
  | .hbm, ⟨17, _⟩ => ⟨S_, .i32⟩
  | .hbm, ⟨18, _⟩ => ⟨S384, .i32⟩
  | .hbm, ⟨19, _⟩ => ⟨S384, .i1⟩
  | .hbm, ⟨20, _⟩ => ⟨S_, .i32⟩
  | .hbm, ⟨21, _⟩ => ⟨S384, .i32⟩
  | .hbm, ⟨22, _⟩ => ⟨S384, .i32⟩
  | .hbm, ⟨23, _⟩ => ⟨S384, .i32⟩
  | .hbm, ⟨24, _⟩ => ⟨S384x1, .i32⟩
  | .hbm, ⟨25, _⟩ => ⟨S384x1, .i32⟩
  | .hbm, ⟨26, _⟩ => ⟨S384x2, .i32⟩
  | .hbm, ⟨27, _⟩ => ⟨S68x64, .f32⟩
  | .hbm, ⟨28, _⟩ => ⟨S4x64, .f32⟩
  | .hbm, ⟨29, _⟩ => ⟨S64x64, .f32⟩
  | .hbm, ⟨30, _⟩ => ⟨S1x64, .f32⟩
  | .hbm, ⟨31, _⟩ => ⟨S1x64, .f32⟩
  | .hbm, ⟨32, _⟩ => ⟨S1x64, .i32⟩
  | .hbm, ⟨33, _⟩ => ⟨S262144x4, .f32⟩
  | .hbm, ⟨34, _⟩ => ⟨S262144x64, .f32⟩
  | .local _ .vmem, ⟨0, _⟩ => ⟨S8192x4, .f32⟩
  | .local _ .vmem, ⟨1, _⟩ => ⟨S8192x4, .f32⟩
  | .local _ .vmem, ⟨2, _⟩ => ⟨S8192x64, .f32⟩
  | .local _ .vmem, ⟨3, _⟩ => ⟨S8192x64, .f32⟩
  | .local _ .vmem, ⟨4, _⟩ => ⟨S4x64, .f32⟩
  | .local _ .vmem, ⟨5, _⟩ => ⟨S64x64, .f32⟩
  | .local _ .vmem, ⟨6, _⟩ => ⟨S1x64, .f32⟩
  | .local _ .vmem, ⟨7, _⟩ => ⟨S1x64, .f32⟩
  | .local _ .vmem, ⟨8, _⟩ => ⟨S1x64, .i32⟩
  | .local _ .vmem, ⟨9, _⟩ => ⟨S8192x4, .f32⟩
  | .local _ .vmem, ⟨10, _⟩ => ⟨S8192x4, .f32⟩
  | .local _ .vmem, ⟨11, _⟩ => ⟨S8192x64, .f32⟩
  | .local _ .vmem, ⟨12, _⟩ => ⟨S8192x64, .f32⟩
  | _, _ => ⟨S262144x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8192x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S68x64 : S_.BroadcastsInDim S68x64 (![] : Fin 0 → Fin S68x64.rank)
  bcast_S_S384 : S_.BroadcastsInDim S384 (![] : Fin 0 → Fin S384.rank)
  bcast_S384_S384x1_0 : S384.BroadcastsInDim S384x1 (![0] : Fin 1 → Fin S384x1.rank)
  concatenates_S384x1_S384x1_S384x2_d1 : Shape.Concatenates [S384x1, S384x1] S384x2 1
  slices_S68x64_S4x64_0_0 : S68x64.Slices ![0, 0] S4x64
  slices_S68x64_S64x64_4_0 : S68x64.Slices ![4, 0] S64x64
  shapeCasts_S64_S1x64 : S64.ShapeCasts S1x64
  inb_S8192x4_S8192x4_0_0 : ∀ a, (![0, 0] : Fin 2 → Nat) a + S8192x4.size a ≤ S8192x4.size a
  h_S8192x4 : 0 < S8192x4.numel
  bitsLt_bf16_f32 : FTy.bits .bf16 < FTy.bits .f32
  inb_S8192x64_S8192x64_0_0 : ∀ a, (![0, 0] : Fin 2 → Nat) a + S8192x64.size a ≤ S8192x64.size a
  h_S8192x64 : 0 < S8192x64.numel
  inb_S4x64_S4x64_0_0 : ∀ a, (![0, 0] : Fin 2 → Nat) a + S4x64.size a ≤ S4x64.size a
  h_S4x64 : 0 < S4x64.numel
  shapeCasts_S4x64_S4x64 : S4x64.ShapeCasts S4x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  slices_S8192x64_o0_60_S8192x4 : S8192x64.Slices ![0, 60] S8192x4
  scatter_S68x64_S384x2_S384_n_01_01_1_wf : ScatterDims.WF S68x64 S384x2 S384 [] [0, 1] [0, 1] 1
  dot_S8192x4_S4x64_S8192x64_1_0_0_1_n_n_wf : DotDims.WF S8192x4 S4x64 S8192x64 [1] [0] [0] [1] [] []
  dot_S8192x64_S64x64_S8192x64_1_0_0_1_n_n_wf : DotDims.WF S8192x64 S64x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x4.size a ≤ S262144x4.size a
  hwx0_0 : ∀ i : grid0.Coords, EltTy.bits .f32 = 32 ∨ (Rect.block (s := S262144x4) S8192x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S262144x64.size a
  hwx0_1 : ∀ i : grid0.Coords, EltTy.bits .f32 = 32 ∨ (Rect.block (s := S262144x64) S8192x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x64.size a ≤ S4x64.size a
  hwx0_2 : ∀ i : grid0.Coords, EltTy.bits .f32 = 32 ∨ (Rect.block (s := S4x64) S4x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .i32 = 32 ∨ (Rect.block (s := S1x64) S1x64.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x4.size a ≤ S262144x4.size a
  hwx0_7 : ∀ i : grid0.Coords, EltTy.bits .f32 = 32 ∨ (Rect.block (s := S262144x4) S8192x4.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8192x64.size a ≤ S262144x64.size a
  hwx0_8 : ∀ i : grid0.Coords, EltTy.bits .f32 = 32 ∨ (Rect.block (s := S262144x64) S8192x64.size (cc0_transform_8 i) (hinb0_8 i)).WholeWords (EltTy.packing .f32)

variable [Facts₀]

def scatter_S68x64_S384x2_S384_n_01_01_1 : ScatterDims S68x64 S384x2 S384 where
  updateWindowDims := []
  insertedWindowDims := [0, 1]
  scatterDimsToOperandDims := [0, 1]
  indexVectorDim := 1
  wf := scatter_S68x64_S384x2_S384_n_01_01_1_wf
def dot_S8192x4_S4x64_S8192x64_1_0_0_1_n_n : DotDims S8192x4 S4x64 S8192x64 where
  lhsContracting := [1]
  rhsContracting := [0]
  lhsNonContracting := [0]
  rhsNonContracting := [1]
  lhsBatch := []
  rhsBatch := []
  wf := dot_S8192x4_S4x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

abbrev win0_0 : Pipeline.Window sig grid0 :=
  Pipeline.Window.ofSpec (Memref.whole main_arg0) S8192x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20_0) S8192x4.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v20_1) S8192x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S262144x4 : Shape := ⟨2, ![262144, 4]⟩
abbrev S262144x64 : Shape := ⟨2, ![262144, 64]⟩
abbrev S384 : Shape := ⟨1, ![384]⟩
abbrev S64 : Shape := ⟨1, ![64]⟩
abbrev S262144x68 : Shape := ⟨2, ![262144, 68]⟩
abbrev S68x262144 : Shape := ⟨2, ![68, 262144]⟩
abbrev S_ : Shape := ⟨0, ![]⟩
abbrev S384x1 : Shape := ⟨2, ![384, 1]⟩
abbrev S384x262144 : Shape := ⟨2, ![384, 262144]⟩
abbrev S64x262144 : Shape := ⟨2, ![64, 262144]⟩
abbrev S64x1 : Shape := ⟨2, ![64, 1]⟩

abbrev nBuf : Space → Nat
  | .hbm => 61
  | .vmem => 0
  | .smem => 0
  | _ => 0

abbrev bufTy : (tb : Table) → Fin (tcTables nBuf tb) → BufTy
  | .hbm, ⟨0, _⟩ => ⟨S262144x4, .f32⟩
  | .hbm, ⟨1, _⟩ => ⟨S262144x64, .f32⟩
  | .hbm, ⟨2, _⟩ => ⟨S384, .f32⟩
  | .hbm, ⟨3, _⟩ => ⟨S64, .f32⟩
  | .hbm, ⟨4, _⟩ => ⟨S64, .f32⟩
  | .hbm, ⟨5, _⟩ => ⟨S384, .i32⟩
  | .hbm, ⟨6, _⟩ => ⟨S384, .i32⟩
  | .hbm, ⟨7, _⟩ => ⟨S64, .i32⟩
  | .hbm, ⟨8, _⟩ => ⟨S262144x68, .f32⟩
  | .hbm, ⟨9, _⟩ => ⟨S68x262144, .f32⟩
  | .hbm, ⟨10, _⟩ => ⟨S_, .i32⟩
  | .hbm, ⟨11, _⟩ => ⟨S384, .i32⟩
  | .hbm, ⟨12, _⟩ => ⟨S384, .i1⟩
  | .hbm, ⟨13, _⟩ => ⟨S_, .i32⟩
  | .hbm, ⟨14, _⟩ => ⟨S384, .i32⟩
  | .hbm, ⟨15, _⟩ => ⟨S384, .i32⟩
  | .hbm, ⟨16, _⟩ => ⟨S384, .i32⟩
  | .hbm, ⟨17, _⟩ => ⟨S384x1, .i32⟩
  | .hbm, ⟨18, _⟩ => ⟨S384x262144, .f32⟩
  | .hbm, ⟨19, _⟩ => ⟨S384x1, .f32⟩
  | .hbm, ⟨20, _⟩ => ⟨S384x262144, .f32⟩
  | .hbm, ⟨21, _⟩ => ⟨S384x262144, .f32⟩
  | .hbm, ⟨22, _⟩ => ⟨S_, .f32⟩
  | .hbm, ⟨23, _⟩ => ⟨S64x262144, .f32⟩
  | .hbm, ⟨24, _⟩ => ⟨S384x1, .i32⟩
  | .hbm, ⟨25, _⟩ => ⟨S64x262144, .f32⟩
  | .hbm, ⟨26, _⟩ => ⟨S64x1, .f32⟩
  | .hbm, ⟨27, _⟩ => ⟨S64x1, .f32⟩
  | .hbm, ⟨28, _⟩ => ⟨S64x262144, .f32⟩
  | .hbm, ⟨29, _⟩ => ⟨S64x262144, .f32⟩
  | .hbm, ⟨30, _⟩ => ⟨S64x262144, .f32⟩
  | .hbm, ⟨31, _⟩ => ⟨S64x262144, .f32⟩
  | .hbm, ⟨32, _⟩ => ⟨S64x1, .i32⟩
  | .hbm, ⟨33, _⟩ => ⟨S_, .i32⟩
  | .hbm, ⟨34, _⟩ => ⟨S64x1, .i32⟩
  | .hbm, ⟨35, _⟩ => ⟨S64x1, .i1⟩
  | .hbm, ⟨36, _⟩ => ⟨S64x262144, .f32⟩
  | .hbm, ⟨37, _⟩ => ⟨S64x262144, .f32⟩
  | .hbm, ⟨38, _⟩ => ⟨S_, .f32⟩
  | .hbm, ⟨39, _⟩ => ⟨S64x262144, .f32⟩
  | .hbm, ⟨40, _⟩ => ⟨S64x262144, .f32⟩
  | .hbm, ⟨41, _⟩ => ⟨S_, .f32⟩
  | .hbm, ⟨42, _⟩ => ⟨S64x262144, .f32⟩
  | .hbm, ⟨43, _⟩ => ⟨S64x262144, .f32⟩
  | .hbm, ⟨44, _⟩ => ⟨S_, .i32⟩
  | .hbm, ⟨45, _⟩ => ⟨S64x1, .i32⟩
  | .hbm, ⟨46, _⟩ => ⟨S64x1, .i1⟩
  | .hbm, ⟨47, _⟩ => ⟨S64x262144, .f32⟩
  | .hbm, ⟨48, _⟩ => ⟨S_, .i32⟩
  | .hbm, ⟨49, _⟩ => ⟨S64x1, .i32⟩
  | .hbm, ⟨50, _⟩ => ⟨S64x1, .i1⟩
  | .hbm, ⟨51, _⟩ => ⟨S64x262144, .f32⟩
  | .hbm, ⟨52, _⟩ => ⟨S64x262144, .f32⟩
  | .hbm, ⟨53, _⟩ => ⟨S64x262144, .i1⟩
  | .hbm, ⟨54, _⟩ => ⟨S64x262144, .f32⟩
  | .hbm, ⟨55, _⟩ => ⟨S64x262144, .i1⟩
  | .hbm, ⟨56, _⟩ => ⟨S64x262144, .f32⟩
  | .hbm, ⟨57, _⟩ => ⟨S64x262144, .i1⟩
  | .hbm, ⟨58, _⟩ => ⟨S64x262144, .f32⟩
  | .hbm, ⟨59, _⟩ => ⟨S262144x64, .f32⟩
  | .hbm, ⟨60, _⟩ => ⟨S262144x4, .f32⟩
  | _, _ => ⟨S262144x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call0_v0 : Ref sig .tc := ⟨.hbm, 53, rfl⟩
abbrev main_v37 : Ref sig .tc := ⟨.hbm, 54, rfl⟩
abbrev main_call1_v0 : Ref sig .tc := ⟨.hbm, 55, rfl⟩
abbrev main_v38 : Ref sig .tc := ⟨.hbm, 56, rfl⟩
abbrev main_call2_v0 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]

class Facts₀ : Prop where
  concatenates_S262144x4_S262144x64_S262144x68_d1 : Shape.Concatenates [S262144x4, S262144x64] S262144x68 1
  transposes_S262144x68_S68x262144_1_0 : S262144x68.Transposes [1, 0] S68x262144
  bcast_S_S384 : S_.BroadcastsInDim S384 (![] : Fin 0 → Fin S384.rank)
  bcast_S384_S384x1_0 : S384.BroadcastsInDim S384x1 (![0] : Fin 1 → Fin S384x1.rank)
  bcast_S384x1_S384x262144_0_1 : S384x1.BroadcastsInDim S384x262144 (![0, 1] : Fin 2 → Fin S384x262144.rank)
  bcast_S_S64x262144 : S_.BroadcastsInDim S64x262144 (![] : Fin 0 → Fin S64x262144.rank)
  bcast_S64_S64x1_0 : S64.BroadcastsInDim S64x1 (![0] : Fin 1 → Fin S64x1.rank)
  bcast_S64x1_S64x262144_0_1 : S64x1.BroadcastsInDim S64x262144 (![0, 1] : Fin 2 → Fin S64x262144.rank)
  bcast_S_S64x1 : S_.BroadcastsInDim S64x1 (![] : Fin 0 → Fin S64x1.rank)
  transposes_S64x262144_S262144x64_1_0 : S64x262144.Transposes [1, 0] S262144x64
  slices_S262144x64_S262144x4_0_60 : S262144x64.Slices ![0, 60] S262144x4
  gather_S68x262144_S384x1_S384x262144_1_0_n_n_0_1_1262144_wf : GatherDims.WF S68x262144 S384x1 S384x262144 [1] [0] [] [0] [] 1 ![1, 262144]
  scatter_S64x262144_S384x1_S384x262144_1_0_0_1_wf : ScatterDims.WF S64x262144 S384x1 S384x262144 [1] [0] [0] 1

variable [Facts₀]

def gather_S68x262144_S384x1_S384x262144_1_0_n_n_0_1_1262144 : GatherDims S68x262144 S384x1 S384x262144 where
  offsetDims := [1]
  collapsedSliceDims := [0]
  operandBatchingDims := []
  startIndicesBatchingDims := []
  startIndexMap := [0]
  indexVectorDim := 1
  sliceSizes := ![1, 262144]
  wf := gather_S68x262144_S384x1_S384x262144_1_0_n_n_0_1_1262144_wf
def scatter_S64x262144_S384x1_S384x262144_1_0_0_1 : ScatterDims S64x262144 S384x1 S384x262144 where
  updateWindowDims := [1]
  insertedWindowDims := [0]
  scatterDimsToOperandDims := [0]
  indexVectorDim := 1
  wf := scatter_S64x262144_S384x1_S384x262144_1_0_0_1_wf

class Facts : Prop extends Facts₀ where

variable [Facts]
-- ==== Proof.Step.lean ====
/-
  One step of the recurrent network, as ONE function of the argument arrays, index by index, on the extended reals.

  The network has 4 input columns and 64 neurons; a row `n` of the batch carries the 68 activations
  `allAct n k` (`k < 4`: the input's column `k`; otherwise the previous state's column `k - 4`). Edge `e` reads the
  activation in column `srcRow e` — the edge's source word with 68 added when it is negative, then kept inside
  [0, 67] —, scales it by the edge's weight and adds it into neuron `dst e`:
      agg n j = ∑ over the edges e whose destination word, read signed, is j, of allAct n (srcRow e) * w e
      state n j = act (actId j) (bias j + resp j * agg n j)
  where `act` picks the logistic function, tanh, sin or the absolute value by the neuron's activation id (0, 1, 2, any
  other). The new state is `state` over all 64 neurons; the output is its last four columns.
-/
import Idealize.ShloMosaic.Lib.ValueIdx
import Idealize.ShloMosaic.PureOps.Ideal.Laws

noncomputable section

open scoped BigOperators

namespace Cert.Step

open Idealize.ShloMosaic Idealize.ShloMosaic.ValueIdx

/-- The shapes of the arguments and results. -/
abbrev SN4 : Shape := ⟨2, ![262144, 4]⟩
abbrev SN64 : Shape := ⟨2, ![262144, 64]⟩
abbrev SE : Shape := ⟨1, ![384]⟩
abbrev SM : Shape := ⟨1, ![64]⟩

/-- An edge's source word as both programs use it: 68 is added to a negative word (an index counted from the end). -/
def srcWord (src : SE.Idx → BitVec 32) (e : Fin 384) : BitVec 32 :=
  Scalar.select (IntOp.cmpi .slt (src (ix1 e)) 0#32) (IntOp.addi (src (ix1 e)) 68#32) (src (ix1 e))

/-- The activation column an edge reads: its source word read signed, kept inside [0, 67]. -/
def srcRow (src : SE.Idx → BitVec 32) (e : Fin 384) : Fin 68 :=
  ⟨min (srcWord src e).toInt.toNat 67, by omega⟩

/-- Row `n`'s 68 activations: the 4 inputs, then the 64 previous states. -/
def allAct (inp : SN4.Idx → EReal) (prev : SN64.Idx → EReal) (n : Fin 262144) (k : Fin 68) : EReal :=
  if h : k.val < 4 then inp (ix2 n ⟨k.val, h⟩) else prev (ix2 n ⟨k.val - 4, by omega⟩)

/-- What the edges into neuron `j` bring, for row `n`. -/
def agg (inp : SN4.Idx → EReal) (prev : SN64.Idx → EReal) (w : SE.Idx → EReal) (src dst : SE.Idx → BitVec 32)
    (n : Fin 262144) (j : Fin 64) : EReal :=
  ∑ e ∈ Finset.univ.filter (fun e : Fin 384 => (dst (ix1 e)).toInt = (j.val : ℤ)),
    allAct inp prev n (srcRow src e) * w (ix1 e)

/-- A neuron's activation function, chosen by its id: 0 the logistic function, 1 tanh, 2 sin, anything else |x|. -/
def act (a : BitVec 32) (x : EReal) : EReal :=
  Scalar.select (IntOp.cmpi .eq a 0#32) (Ideal.logistic x)
    (Scalar.select (IntOp.cmpi .eq a 1#32) (Ideal.tanh x)
      (Scalar.select (IntOp.cmpi .eq a 2#32) (Ideal.sin x) (max x (-x))))

/-- Neuron `j`'s new state for row `n`. -/
def state (inp : SN4.Idx → EReal) (prev : SN64.Idx → EReal) (w : SE.Idx → EReal) (bias resp : SM.Idx → EReal)
    (src dst : SE.Idx → BitVec 32) (actId : SM.Idx → BitVec 32) (n : Fin 262144) (j : Fin 64) : EReal :=
  act (actId (ix1 j)) (bias (ix1 j) + resp (ix1 j) * agg inp prev w src dst n j)

/-- The new state array. -/
def stateArr (inp : SN4.Idx → EReal) (prev : SN64.Idx → EReal) (w : SE.Idx → EReal) (bias resp : SM.Idx → EReal)
    (src dst : SE.Idx → BitVec 32) (actId : SM.Idx → BitVec 32) : SN64.Idx → EReal :=
  fun i => state inp prev w bias resp src dst actId (i 0) (i 1)

/-- The output array: the last four neurons' states. -/
def outArr (inp : SN4.Idx → EReal) (prev : SN64.Idx → EReal) (w : SE.Idx → EReal) (bias resp : SM.Idx → EReal)
    (src dst : SE.Idx → BitVec 32) (actId : SM.Idx → BitVec 32) : SN4.Idx → EReal :=
  fun i => state inp prev w bias resp src dst actId (i 0) ⟨(i 1).val + 60, by have h : (i 1).val < 4 := (i 1).isLt; show (i 1).val + 60 < 64; omega⟩

end Cert.Step

end
-- ==== Proof.LibPlainDot.lean ====
/-
  A plain matrix product read at an element, at the extended reals: for dimension numbers that contract the left
  operand's axis 1 with the right operand's axis 0 and have no batch axis ([M, K] by [K, N]), the contraction at (p, q)
  is the sum over k of lhs[p, k] * rhs[k, q] — for a kernel's matmul into a zero accumulator and for the host's
  dot_general alike. General lemmas over any sizes; they import no program.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

/-- The plain dimension numbers over any well-formedness proof. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row is the output's row … -/
theorem lhs_0 (i : (⟨2, ![M, N]⟩ : Shape).Idx) (q : (plainDims M K N wf).contr.Idx) :
    ((plainDims M K N wf).lhsIdx i q 0).val = (i 0).val := by
  unfold DotDims.lhsIdx
  rw [dif_neg (show ¬(0 : Fin (⟨2, ![M, K]⟩ : Shape).rank) ∈ (plainDims M K N wf).lhsBatch from List.not_mem_nil),
    dif_pos (show (0 : Fin (⟨2, ![M, K]⟩ : Shape).rank) ∈ (plainDims M K N wf).lhsNonContracting from List.mem_singleton.mpr rfl)]
  rfl
/-- … its column the contracted coordinate … -/
theorem lhs_1 (i : (⟨2, ![M, N]⟩ : Shape).Idx) (q : (plainDims M K N wf).contr.Idx) :
    ((plainDims M K N wf).lhsIdx i q 1).val = (q ⟨0, (Nat.one_pos : 0 < (plainDims M K N wf).contr.rank)⟩).val :=
  (plainDims M K N wf).lhsIdx_val_of_single rfl i q
/-- … the right operand's row the contracted coordinate … -/
theorem rhs_0 (i : (⟨2, ![M, N]⟩ : Shape).Idx) (q : (plainDims M K N wf).contr.Idx) :
    ((plainDims M K N wf).rhsIdx i q 0).val = (q ⟨0, (Nat.one_pos : 0 < (plainDims M K N wf).contr.rank)⟩).val :=
  (plainDims M K N wf).rhsIdx_val_of_single rfl i q
/-- … and its column the output's column. -/
theorem rhs_1 (i : (⟨2, ![M, N]⟩ : Shape).Idx) (q : (plainDims M K N wf).contr.Idx) :
    ((plainDims M K N wf).rhsIdx i q 1).val = (i 1).val := by
  unfold DotDims.rhsIdx
  rw [dif_neg (show ¬(1 : Fin (⟨2, ![K, N]⟩ : Shape).rank) ∈ (plainDims M K N wf).rhsBatch from List.not_mem_nil),
    dif_pos (show (1 : Fin (⟨2, ![K, N]⟩ : Shape).rank) ∈ (plainDims M K N wf).rhsNonContracting from List.mem_singleton.mpr rfl)]
  rfl

/-- The contraction sum of the plain dimension numbers at (p, q), re-indexed by the contracted coordinate. -/
theorem plain_sum (l : (⟨2, ![M, K]⟩ : Shape).Idx → EReal) (r : (⟨2, ![K, N]⟩ : Shape).Idx → EReal) (p : Fin M) (q : Fin N) :
    ∑ k : (plainDims M K N wf).contr.Idx, l ((plainDims M K N wf).lhsIdx (ix2 p q) k) * r ((plainDims M K N wf).rhsIdx (ix2 p q) k)
      = ∑ k : Fin K, l (ix2 p k) * r (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_0 wf _ _
      | ⟨1, _⟩ => exact (lhs_1 wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_0 wf _ _).trans hk
      | ⟨1, _⟩ => exact rhs_1 wf _ _)
  rw [el, er]

/-- The same for any record of dimension numbers whose six lists are the plain ones. -/
theorem contr_sum_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf'⟩ := d
  dsimp only at hlc hrc hln hrn hlb hrb
  subst hlc hrc hln hrn hlb hrb
  exact plain_sum wf' l r p q

/-- A kernel's matmul into the zero accumulator, at (p, q): the sum over k of lhs[p, k] * rhs[k, q]. -/
theorem matmul_zero_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  rw [Ideal.matmul_constant_zero_apply]
  exact contr_sum_apply d hlc hrc hln hrn hlb hrb l r p q

/-- The host's dot_general, at (p, q): the same sum. -/
theorem dotGeneral_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  rw [Ideal.dotGeneral_apply]
  exact contr_sum_apply d hlc hrc hln hrn hlb hrb l r p q

end Idealize.ShloMosaic.PlainDot

end
-- ==== Proof.KernelPoint.lean ====
/-
  The kernel body's value at one entry of the output block.

  For the row block `P0` (8192 × 4 inputs), `P1` (8192 × 64 previous states), the two resident weight blocks `P2` (4 × 64)
  and `P3` (64 × 64), the bias row `P4`, the response row `P5` and the activation-id row `P6`, entry (p, q) of the body's
  result is the activation chosen by `P6 (0, q)` applied to
      P4 (0, q) + P5 (0, q) * (∑ k < 4, P0 (p, k) * P2 (k, q) + ∑ k < 64, P1 (p, k) * P3 (k, q)).
  On the extended reals the narrowing of the operands to bf16 is the identity, a matrix product into the zero
  accumulator is the plain sum of products, and the one-row operands are read at their row 0.
-/
import proofs.«403867_j53893249630523_1_alg».proof.Proof.Gen.KernelIdeal.Skeleton
import proofs.«403867_j53893249630523_1_alg».proof.Proof.Step
import proofs.«403867_j53893249630523_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Point

open Cert.KernelIdeal Cert.KernelIdeal.Gen Idealize.ShloMosaic Idealize.ShloMosaic.ValueIdx

/-- The sum of the two matrix products into zero accumulators, at entry (p, q): the two plain sums of products. -/
theorem dense_apply (A0 : FVec Ideal S8192x4 .bf16) (B0 : FVec Ideal S4x64 .bf16) (A1 : FVec Ideal S8192x64 .bf16)
    (B1 : FVec Ideal S64x64 .bf16) (p : Fin 8192) (q : Fin 64) :
    addf (matmul dot_S8192x4_S4x64_S8192x64_1_0_0_1_n_n none A0 B0 (constant S8192x64 .f32 0x00000000#32))
        (matmul dot_S8192x64_S64x64_S8192x64_1_0_0_1_n_n none A1 B1 (constant S8192x64 .f32 0x00000000#32)) (ix2 p q)
      = (∑ k : Fin 4, A0 (ix2 p k) * B0 (ix2 k q)) + ∑ k : Fin 64, A1 (ix2 p k) * B1 (ix2 k q) := by
  show matmul dot_S8192x4_S4x64_S8192x64_1_0_0_1_n_n none A0 B0 (constant S8192x64 .f32 0x00000000#32) (ix2 p q)
      + matmul dot_S8192x64_S64x64_S8192x64_1_0_0_1_n_n none A1 B1 (constant S8192x64 .f32 0x00000000#32) (ix2 p q) = _
  simp only [matmul]
  rw [PlainDot.matmul_zero_apply _ rfl rfl rfl rfl rfl rfl none A0 B0 p q,
    PlainDot.matmul_zero_apply _ rfl rfl rfl rfl rfl rfl none A1 B1 p q]

/-- The chain of selections over the activation ids, at an entry: the activation chosen by the id there. -/
theorem act_apply (a : IVec S8192x64 32) (X : FVec Ideal S8192x64 .f32) (i : S8192x64.Idx) :
    select (cmpi .eq a (broadcast S8192x64 0#32)) (logistic X)
        (select (cmpi .eq a (broadcast S8192x64 1#32)) (tanh X)
          (select (cmpi .eq a (broadcast S8192x64 2#32)) (sin X) (absf X))) i
      = Cert.Step.act (a i) (X i) := rfl

/-- Entry (p, q) of the body's result. -/
theorem pay2_apply (P0 : Vec Ideal S8192x4 .f32) (P1 : Vec Ideal S8192x64 .f32) (P2 : Vec Ideal S4x64 .f32)
    (P3 : Vec Ideal S64x64 .f32) (P4 P5 : Vec Ideal S1x64 .f32) (P6 : Vec Ideal S1x64 .i32) (p : Fin 8192) (q : Fin 64) :
    k0_pay2 P0 P1 P2 P3 P4 P5 P6 (ix2 p q)
      = Cert.Step.act (P6 (ix2 0 q)) (P4 (ix2 0 q) + P5 (ix2 0 q)
          * ((∑ k : Fin 4, P0 (ix2 p k) * P2 (ix2 k q)) + ∑ k : Fin 64, P1 (ix2 p k) * P3 (ix2 k q))) := by
  unfold k0_pay2
  simp only [shapeCast_self]
  refine (act_apply _ _ (ix2 p q)).trans ?_
  refine congrArg₂ Cert.Step.act (broadcastTo_1b_ab_apply P6 broadcasts_S1x64_S8192x64 p q) ?_
  show broadcastTo S8192x64 P4 broadcasts_S1x64_S8192x64 (ix2 p q)
      + broadcastTo S8192x64 P5 broadcasts_S1x64_S8192x64 (ix2 p q) * _ = _
  rw [broadcastTo_1b_ab_apply, broadcastTo_1b_ab_apply, dense_apply]
  rfl

end Cert.KernelIdeal.Point

end
-- ==== Proof.KernelArray.lean ====
/-
  From the kernel's blocks to its two whole output arrays, on the extended reals.

  The batch of 262144 rows is cut into 32 tiles of 8192 rows. Grid point `t` sees rows `8192 t … 8192 t + 8191` of the
  input and of the previous state (its blocks of those two arrays move with `t`), and the two weight matrices, the bias,
  the response and the activation ids whole (their one block is the array). What it writes back is, at block row `p` and
  neuron `j`, the new state of batch row `8192 t + p`: the activation, chosen by the neuron's id, of bias plus response
  times the row's 4 inputs against column `j` of the input weights plus its 64 previous states against column `j` of
  the state weights. The 32 blocks tile the arrays (row `n` lies in block `n / 8192`), so the state array ends holding
  that value at every (row, neuron), and the output array its last four columns.
-/
import proofs.«403867_j53893249630523_1_alg».proof.Proof.Gen.KernelIdeal.Value
import proofs.«403867_j53893249630523_1_alg».proof.Proof.Step
import proofs.«403867_j53893249630523_1_alg».proof.Proof.KernelPoint
import Idealize.ShloMosaic.Lib.Pipeline.Value
import Idealize.ShloMosaic.Lib.ValueIdx

noncomputable section

open scoped BigOperators

namespace Cert.KernelIdeal.Arr

open Cert.KernelIdeal Cert.KernelIdeal.Gen Cert.KernelIdeal.Value Idealize.ShloMosaic Idealize.ShloMosaic.ValueIdx
open Idealize.ShloMosaic.Pipeline (Dat)

variable (m : (ℓ : Loc nD τ sig) → Buf (Elt Ideal) ℓ)

/-! ## The arrays the region reads, at their literal types -/

/-- The batch's inputs: 262144 rows of 4. -/
abbrev inpA (c : Dev nD) : S262144x4.Idx → EReal := V m c main_arg0
/-- The batch's previous states: 262144 rows of 64. -/
abbrev prevA (c : Dev nD) : S262144x64.Idx → EReal := V m c main_arg1
/-- The weights from the 4 inputs into the 64 neurons. -/
abbrev winA (c : Dev nD) : S4x64.Idx → EReal := V m c main_v15
/-- The weights from the 64 previous states into the 64 neurons. -/
abbrev wstA (c : Dev nD) : S64x64.Idx → EReal := V m c main_v16
/-- The neurons' biases, as one row. -/
abbrev biasA (c : Dev nD) : S1x64.Idx → EReal := V m c main_v17
/-- The neurons' responses, as one row. -/
abbrev respA (c : Dev nD) : S1x64.Idx → EReal := V m c main_v18
/-- The neurons' activation ids, as one row. -/
abbrev actA (c : Dev nD) : S1x64.Idx → BitVec 32 := V m c main_v19

/-- neuron j's new state for row n, in the kernel's dense form over those arrays -/
def kstate (c : Dev nD) (n : Fin 262144) (j : Fin 64) : EReal :=
  Cert.Step.act (actA m c (ix2 0 j)) (biasA m c (ix2 0 j) + respA m c (ix2 0 j) * ((∑ k : Fin 4, inpA m c (ix2 n k) * winA m c (ix2 k j)) + ∑ k : Fin 64, prevA m c (ix2 n k) * wstA m c (ix2 k j)))

/-- The state array: every row's 64 new states. -/
abbrev stateG (c : Dev nD) : S262144x64.Idx → EReal := fun i => kstate m c (i 0) (i 1)

/-- The output array: every row's last four new states. -/
abbrev outG (c : Dev nD) : S262144x4.Idx → EReal :=
  fun i => kstate m c (i 0) ⟨(i 1).val + 60, by have h : (i 1).val < 4 := (i 1).isLt; show (i 1).val + 60 < 64; omega⟩

/-! ## Where each block sits -/

/-- The zero offsets of a whole-block access. -/
theorem hz : (![0, 0] : Fin 2 → Nat) = fun _ => 0 := funext fun a => by fin_cases a <;> rfl

/-- The block indices at grid point `t`, decided over the 32 points: the input, the previous state and the two results
    are at row block `t`, column block 0; the weights, bias, response and activation ids at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-! ## Each input block read at a block index is its array read at the index under it -/

/-- The input's block at point `t`, at block row `x 0`, is the input's row `8192 t + x 0`. -/
theorem inp_blk (c : Dev nD) (t : Fin cfg0.N) (x : S8192x4.Idx) (i : S262144x4.Idx)
    (h0 : (i 0).val = t.val * 8192 + (x 0).val) (h1 : (i 1).val = (x 1).val) :
    (iblk m c 0 t : Vec Ideal S8192x4 .f32) x = inpA m c i := by
  obtain ⟨e0, e1, -⟩ := idx_facts t
  unfold iblk
  rw [View.read_apply]
  show V m c main_arg0 (((cfg0.win 0).blk t).view.emb x) = V m c main_arg0 i
  have h : ((cfg0.win 0).blk t).view.emb x = i := by
    funext a; apply Fin.ext
    match a with
    | ⟨0, _⟩ => show win0_0.index t (0 : Fin 2) * 8192 + 1 * (x 0).val = (i 0).val; omega
    | ⟨1, _⟩ => show win0_0.index t (1 : Fin 2) * 4 + 1 * (x 1).val = (i 1).val; omega
  rw [h]

/-- The previous state's block at point `t`, at block row `x 0`, is the previous state's row `8192 t + x 0`. -/
theorem prev_blk (c : Dev nD) (t : Fin cfg0.N) (x : S8192x64.Idx) (i : S262144x64.Idx)
    (h0 : (i 0).val = t.val * 8192 + (x 0).val) (h1 : (i 1).val = (x 1).val) :
    (iblk m c 1 t : Vec Ideal S8192x64 .f32) x = prevA m c i := by
  obtain ⟨-, -, e0, e1, -⟩ := idx_facts t
  unfold iblk
  rw [View.read_apply]
  show V m c main_arg1 (((cfg0.win 1).blk t).view.emb x) = V m c main_arg1 i
  have h : ((cfg0.win 1).blk t).view.emb x = i := by
    funext a; apply Fin.ext
    match a with
    | ⟨0, _⟩ => show win0_1.index t (0 : Fin 2) * 8192 + 1 * (x 0).val = (i 0).val; omega
    | ⟨1, _⟩ => show win0_1.index t (1 : Fin 2) * 64 + 1 * (x 1).val = (i 1).val; omega
  rw [h]

/-- The input weights' one block is the array. -/
theorem win_blk (c : Dev nD) (t : Fin cfg0.N) (x : S4x64.Idx) :
    (iblk m c 2 t : Vec Ideal S4x64 .f32) x = winA m c x := by
  obtain ⟨-, -, -, -, e0, e1, -⟩ := idx_facts t
  unfold iblk
  rw [View.read_apply]
  show V m c main_v15 (((cfg0.win 2).blk t).view.emb x) = V m c main_v15 x
  have h : ((cfg0.win 2).blk t).view.emb x = x := by
    funext a; apply Fin.ext
    match a with
    | ⟨0, _⟩ => show win0_2.index t (0 : Fin 2) * 4 + 1 * (x 0).val = (x 0).val; omega
    | ⟨1, _⟩ => show win0_2.index t (1 : Fin 2) * 64 + 1 * (x 1).val = (x 1).val; omega
  rw [h]

/-- The state weights' one block is the array. -/
theorem wst_blk (c : Dev nD) (t : Fin cfg0.N) (x : S64x64.Idx) :
    (iblk m c 3 t : Vec Ideal S64x64 .f32) x = wstA m c x := by
  obtain ⟨-, -, -, -, -, -, e0, e1, -⟩ := idx_facts t
  unfold iblk
  rw [View.read_apply]
  show V m c main_v16 (((cfg0.win 3).blk t).view.emb x) = V m c main_v16 x
  have h : ((cfg0.win 3).blk t).view.emb x = x := by
    funext a; apply Fin.ext
    match a with
    | ⟨0, _⟩ => show win0_3.index t (0 : Fin 2) * 64 + 1 * (x 0).val = (x 0).val; omega
    | ⟨1, _⟩ => show win0_3.index t (1 : Fin 2) * 64 + 1 * (x 1).val = (x 1).val; omega
  rw [h]

/-- The bias row's one block is the array. -/
theorem bias_blk (c : Dev nD) (t : Fin cfg0.N) (x : S1x64.Idx) :
    (iblk m c 4 t : Vec Ideal S1x64 .f32) x = biasA m c x := by
  obtain ⟨-, -, -, -, -, -, -, -, e0, e1, -⟩ := idx_facts t
  unfold iblk
  rw [View.read_apply]
  show V m c main_v17 (((cfg0.win 4).blk t).view.emb x) = V m c main_v17 x
  have h : ((cfg0.win 4).blk t).view.emb x = x := by
    funext a; apply Fin.ext
    match a with
    | ⟨0, _⟩ => show win0_4.index t (0 : Fin 2) * 1 + 1 * (x 0).val = (x 0).val; omega
    | ⟨1, _⟩ => show win0_4.index t (1 : Fin 2) * 64 + 1 * (x 1).val = (x 1).val; omega
  rw [h]

/-- The response row's one block is the array. -/
theorem resp_blk (c : Dev nD) (t : Fin cfg0.N) (x : S1x64.Idx) :
    (iblk m c 5 t : Vec Ideal S1x64 .f32) x = respA m c x := by
  obtain ⟨-, -, -, -, -, -, -, -, -, -, e0, e1, -⟩ := idx_facts t
  unfold iblk
  rw [View.read_apply]
  show V m c main_v18 (((cfg0.win 5).blk t).view.emb x) = V m c main_v18 x
  have h : ((cfg0.win 5).blk t).view.emb x = x := by
    funext a; apply Fin.ext
    match a with
    | ⟨0, _⟩ => show win0_5.index t (0 : Fin 2) * 1 + 1 * (x 0).val = (x 0).val; omega
    | ⟨1, _⟩ => show win0_5.index t (1 : Fin 2) * 64 + 1 * (x 1).val = (x 1).val; omega
  rw [h]

/-- The activation-id row's one block is the array. -/
theorem act_blk (c : Dev nD) (t : Fin cfg0.N) (x : S1x64.Idx) :
    (iblk m c 6 t : Vec Ideal S1x64 .i32) x = actA m c x := by
  obtain ⟨-, -, -, -, -, -, -, -, -, -, -, -, e0, e1, -⟩ := idx_facts t
  unfold iblk
  rw [View.read_apply]
  show V m c main_v19 (((cfg0.win 6).blk t).view.emb x) = V m c main_v19 x
  have h : ((cfg0.win 6).blk t).view.emb x = x := by
    funext a; apply Fin.ext
    match a with
    | ⟨0, _⟩ => show win0_6.index t (0 : Fin 2) * 1 + 1 * (x 0).val = (x 0).val; omega
    | ⟨1, _⟩ => show win0_6.index t (1 : Fin 2) * 64 + 1 * (x 1).val = (x 1).val; omega
  rw [h]

/-! ## The payload at a block index is the new state of the row under it -/

/-- For any blocks that read, at block row `p`, as the arrays read at batch row `n` (and the weights, bias, response
    and ids as their arrays), the payload at `(p, q)` is row `n`'s new state of neuron `q`. -/
theorem state_of_blocks (c : Dev nD) (P0 : Vec Ideal S8192x4 .f32) (P1 : Vec Ideal S8192x64 .f32) (P2 : Vec Ideal S4x64 .f32)
    (P3 : Vec Ideal S64x64 .f32) (P4 P5 : Vec Ideal S1x64 .f32) (P6 : Vec Ideal S1x64 .i32)
    (p : Fin 8192) (q : Fin 64) (n : Fin 262144)
    (h0 : ∀ k : Fin 4, P0 (ix2 p k) = inpA m c (ix2 n k)) (h1 : ∀ k : Fin 64, P1 (ix2 p k) = prevA m c (ix2 n k))
    (h2 : ∀ x, P2 x = winA m c x) (h3 : ∀ x, P3 x = wstA m c x) (h4 : ∀ x, P4 x = biasA m c x)
    (h5 : ∀ x, P5 x = respA m c x) (h6 : ∀ x, P6 x = actA m c x) :
    k0_pay2 P0 P1 P2 P3 P4 P5 P6 (ix2 p q) = kstate m c n q := by
  rw [Cert.KernelIdeal.Point.pay2_apply]
  unfold kstate
  simp only [h0, h1, h2, h3, h4, h5, h6]

/-- At grid point `t`: the payload of the point's blocks at `(p, q)` is the new state of row `8192 t + p`, neuron `q`. -/
theorem state_point (c : Dev nD) (t : Fin cfg0.N) (p : Fin 8192) (q : Fin 64) (n : Fin 262144) (j : Fin 64)
    (hn : n.val = t.val * 8192 + p.val) (hj : j.val = q.val) :
    k0_pay2 (iblk m c 0 t : Vec Ideal S8192x4 .f32) (iblk m c 1 t : Vec Ideal S8192x64 .f32) (iblk m c 2 t : Vec Ideal S4x64 .f32)
        (iblk m c 3 t : Vec Ideal S64x64 .f32) (iblk m c 4 t : Vec Ideal S1x64 .f32) (iblk m c 5 t : Vec Ideal S1x64 .f32)
        (iblk m c 6 t : Vec Ideal S1x64 .i32) (ix2 p q) = kstate m c n j := by
  obtain rfl : j = q := Fin.ext hj
  exact state_of_blocks m c (iblk m c 0 t) (iblk m c 1 t) (iblk m c 2 t) (iblk m c 3 t) (iblk m c 4 t) (iblk m c 5 t) (iblk m c 6 t) p j n
    (fun k => inp_blk m c t (ix2 p k) (ix2 n k) hn rfl) (fun k => prev_blk m c t (ix2 p k) (ix2 n k) hn rfl)
    (win_blk m c t) (wst_blk m c t) (bias_blk m c t) (resp_blk m c t) (act_blk m c t)

/-! ## The state array -/

/-- The payload of point `t`'s blocks at a block index is `stateG` at the array index under it. -/
theorem state_at (c : Dev nD) (t : Fin cfg0.N) (y : S8192x64.Idx) (i : S262144x64.Idx)
    (h0 : (i 0).val = t.val * 8192 + (y 0).val) (h1 : (i 1).val = (y 1).val) :
    k0_pay2 (iblk m c 0 t : Vec Ideal S8192x4 .f32) (iblk m c 1 t : Vec Ideal S8192x64 .f32) (iblk m c 2 t : Vec Ideal S4x64 .f32)
        (iblk m c 3 t : Vec Ideal S64x64 .f32) (iblk m c 4 t : Vec Ideal S1x64 .f32) (iblk m c 5 t : Vec Ideal S1x64 .f32)
        (iblk m c 6 t : Vec Ideal S1x64 .i32) y = stateG m c i := by
  obtain ⟨p, q, rfl⟩ : ∃ (p : Fin 8192) (q : Fin 64), y = ix2 p q := ⟨y 0, y 1, eq_ix2 y⟩
  exact state_point m c t p q (i 0) (i 1) h0 h1

/-- What point `t` writes back to the state array is block `t` of `stateG`. -/
theorem flushed8_eq (c : Dev nD) (t : Fin cfg0.N) :
    (dats m 0 c).flushed 8 t = ((cfg0.win 8).blk t).view.read (Elt Ideal) (stateG m c) := by
  rw [flushed8]
  unfold out0_8
  rw [View.canon_unit_zero hz]
  simp only [View.ld_unit_zero (S := S8192x4) hz, View.ld_unit_zero (S := S8192x64) hz, View.ld_unit_zero (S := S4x64) hz,
    View.ld_unit_zero (S := S64x64) hz, View.ld_unit_zero (S := S1x64) hz]
  obtain ⟨-, -, -, -, -, -, -, -, -, -, -, -, -, -, -, -, e0, e1⟩ := idx_facts t
  funext y
  rw [View.read_apply, cast_eq]
  refine Eq.trans (show _ = k0_pay2 (iblk m c 0 t) (iblk m c 1 t) (iblk m c 2 t) (iblk m c 3 t) (iblk m c 4 t) (iblk m c 5 t) (iblk m c 6 t) y from rfl) ?_
  refine state_at m c t y _ ?_ ?_
  · show win0_8.index t (0 : Fin 2) * 8192 + 1 * (y 0).val = t.val * 8192 + (y 0).val; omega
  · show win0_8.index t (1 : Fin 2) * 64 + 1 * (y 1).val = (y 1).val; omega

/-- An index of the state array is in point `t`'s block iff each coordinate is in the block's range on its axis. -/
theorem mem_blk8 (t : Fin cfg0.N) (i : S262144x64.Idx) :
    i ∈ ((cfg0.win 8).blk t).view.set ↔ ∀ a : Fin 2, win0_8.index t a * S8192x64.size a ≤ (i a).val ∧ (i a).val < win0_8.index t a * S8192x64.size a + S8192x64.size a := by
  show i ∈ ((View.whole main_v20_1).slice (win0_8.rect t)).set ↔ _
  rw [View.set_slice_whole, Rect.mem_set_unit]
  exact Iff.rfl

/-- Row `n` of the state array lies in the block of point `n / 8192`. -/
theorem cover8 (i : S262144x64.Idx) :
    ∃ t : Fin cfg0.N, (cfg0.win 8).flush t = true ∧ i ∈ ((cfg0.win 8).blk t).view.set := by
  have hi0 : (i 0).val < 262144 := (i 0).isLt
  have hi1 : (i 1).val < 64 := (i 1).isLt
  obtain ⟨t, ht⟩ : ∃ t : Fin cfg0.N, t.val = (i 0).val / 8192 :=
    ⟨⟨(i 0).val / 8192, by show (i 0).val / 8192 < 32; omega⟩, rfl⟩
  obtain ⟨-, -, -, -, -, -, -, -, -, -, -, -, -, -, -, -, e0, e1⟩ := idx_facts t
  refine ⟨t, flush0_8 t, ?_⟩
  rw [mem_blk8]
  intro a
  match a with
  | ⟨0, _⟩ => show win0_8.index t (0 : Fin 2) * 8192 ≤ (i 0).val ∧ (i 0).val < win0_8.index t (0 : Fin 2) * 8192 + 8192; omega
  | ⟨1, _⟩ => show win0_8.index t (1 : Fin 2) * 64 ≤ (i 1).val ∧ (i 1).val < win0_8.index t (1 : Fin 2) * 64 + 64; omega

/-- THE STATE ARRAY after the run: every row's 64 new states. -/
theorem final8 (c : Dev nD) : (dats m 0 c).arrAt 8 cfg0.N = fun i => kstate m c (i 0) (i 1) :=
  (dats m 0 c).arrAt_eq_of_cover 8 (stateG m c) (fun t _ => flushed8_eq m c t) cover8

/-! ## The output array: the state's last four columns -/

/-- The block index the output's block reads the payload at: the same block row, the column 60 further. -/
theorem ix7_0_eq (y : S8192x4.Idx) (p : Fin 8192) (q : Fin 64) (hp : p.val = (y 0).val) (hq : q.val = (y 1).val + 60) :
    ix7_0 y = ix2 p q := by
  funext a
  match a with
  | ⟨0, _⟩ => exact Fin.ext hp.symm
  | ⟨1, _⟩ => exact Fin.ext hq.symm

/-- The payload of point `t`'s blocks, read 60 columns to the right of a block index of the output, is `outG` at the
    array index under that block index. -/
theorem out_at (c : Dev nD) (t : Fin cfg0.N) (y : S8192x4.Idx) (i : S262144x4.Idx)
    (h0 : (i 0).val = t.val * 8192 + (y 0).val) (h1 : (i 1).val = (y 1).val) :
    k0_pay2 (iblk m c 0 t : Vec Ideal S8192x4 .f32) (iblk m c 1 t : Vec Ideal S8192x64 .f32) (iblk m c 2 t : Vec Ideal S4x64 .f32)
        (iblk m c 3 t : Vec Ideal S64x64 .f32) (iblk m c 4 t : Vec Ideal S1x64 .f32) (iblk m c 5 t : Vec Ideal S1x64 .f32)
        (iblk m c 6 t : Vec Ideal S1x64 .i32) (ix7_0 y) = outG m c i := by
  have hy0 : (y 0).val < 8192 := (y 0).isLt
  have hy1 : (y 1).val < 4 := (y 1).isLt
  have hi1 : (i 1).val < 4 := (i 1).isLt
  rw [ix7_0_eq y ⟨(y 0).val, hy0⟩ ⟨(y 1).val + 60, by omega⟩ rfl rfl]
  exact state_point m c t _ _ (i 0) ⟨(i 1).val + 60, by omega⟩ h0 (by show (i 1).val + 60 = (y 1).val + 60; omega)

/-- What point `t` writes back to the output array is block `t` of `outG`. -/
theorem flushed7_eq (c : Dev nD) (t : Fin cfg0.N) :
    (dats m 0 c).flushed 7 t = ((cfg0.win 7).blk t).view.read (Elt Ideal) (outG m c) := by
  rw [flushed7]
  unfold out0_7
  simp only [View.ld_unit_zero (S := S8192x4) hz, View.ld_unit_zero (S := S8192x64) hz, View.ld_unit_zero (S := S4x64) hz,
    View.ld_unit_zero (S := S64x64) hz, View.ld_unit_zero (S := S1x64) hz]
  obtain ⟨-, -, -, -, -, -, -, -, -, -, -, -, -, -, e0, e1, -⟩ := idx_facts t
  funext y
  rw [View.read_apply, cast_eq]
  refine Eq.trans (canon7_eq (iblk m c 0 t) (iblk m c 1 t) (iblk m c 2 t) (iblk m c 3 t) (iblk m c 4 t) (iblk m c 5 t) (iblk m c 6 t) y) ?_
  refine out_at m c t y _ ?_ ?_
  · show win0_7.index t (0 : Fin 2) * 8192 + 1 * (y 0).val = t.val * 8192 + (y 0).val; omega
  · show win0_7.index t (1 : Fin 2) * 4 + 1 * (y 1).val = (y 1).val; omega

/-- An index of the output array is in point `t`'s block iff each coordinate is in the block's range on its axis. -/
theorem mem_blk7 (t : Fin cfg0.N) (i : S262144x4.Idx) :
    i ∈ ((cfg0.win 7).blk t).view.set ↔ ∀ a : Fin 2, win0_7.index t a * S8192x4.size a ≤ (i a).val ∧ (i a).val < win0_7.index t a * S8192x4.size a + S8192x4.size a := by
  show i ∈ ((View.whole main_v20_0).slice (win0_7.rect t)).set ↔ _
  rw [View.set_slice_whole, Rect.mem_set_unit]
  exact Iff.rfl

/-- Row `n` of the output array lies in the block of point `n / 8192`. -/
theorem cover7 (i : S262144x4.Idx) :
    ∃ t : Fin cfg0.N, (cfg0.win 7).flush t = true ∧ i ∈ ((cfg0.win 7).blk t).view.set := by
  have hi0 : (i 0).val < 262144 := (i 0).isLt
  have hi1 : (i 1).val < 4 := (i 1).isLt
  obtain ⟨t, ht⟩ : ∃ t : Fin cfg0.N, t.val = (i 0).val / 8192 :=
    ⟨⟨(i 0).val / 8192, by show (i 0).val / 8192 < 32; omega⟩, rfl⟩
  obtain ⟨-, -, -, -, -, -, -, -, -, -, -, -, -, -, e0, e1, -⟩ := idx_facts t
  refine ⟨t, flush0_7 t, ?_⟩
  rw [mem_blk7]
  intro a
  match a with
  | ⟨0, _⟩ => show win0_7.index t (0 : Fin 2) * 8192 ≤ (i 0).val ∧ (i 0).val < win0_7.index t (0 : Fin 2) * 8192 + 8192; omega
  | ⟨1, _⟩ => show win0_7.index t (1 : Fin 2) * 4 ≤ (i 1).val ∧ (i 1).val < win0_7.index t (1 : Fin 2) * 4 + 4; omega

/-- THE OUTPUT ARRAY after the run: every row's last four new states. -/
theorem final7 (c : Dev nD) : (dats m 0 c).arrAt 7 cfg0.N = fun i => kstate m c (i 0) ⟨(i 1).val + 60, by have h : (i 1).val < 4 := (i 1).isLt; show (i 1).val + 60 < 64; omega⟩ :=
  (dats m 0 c).arrAt_eq_of_cover 7 (outG m c) (fun t _ => flushed7_eq m c t) cover7

end Cert.KernelIdeal.Arr

end
-- ==== Proof.LibScatterRead.lean ====
/-
  Host scatters and gathers read at an index, at the extended reals: what `x.at[idx].add(u)` and `x[idx]` over
  rows hold at one element, as a sum over the updates that land there / as the operand's row at the clamped index.
  General lemmas over any sizes; they import no program.
-/
import Idealize.ShloMosaic.Lib.ValueIdx
import Idealize.ShloMosaic.PureOps.Ideal.Laws

noncomputable section

open scoped BigOperators

namespace Idealize.ShloMosaic.ScatterRead

open Idealize.ShloMosaic Idealize.ShloMosaic.ValueIdx

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) :=
  (Equiv.sum_comp (idxEquiv1 (n := n)).symm f).symm

/-- An update lands at operand index `i` exactly when, on every operand axis, its window's start plus its window
    coordinate is `i`'s coordinate there (the start read signed: a sum that is negative or past the axis's end is no
    coordinate of any `i`, and the update is dropped). -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · next h =>
    rw [Option.some.injEq]
    constructor
    · rintro rfl a
      have := h a
      show d.start j idx a + (d.window j a : ℤ) = ((d.start j idx a + (d.window j a : ℤ)).toNat : ℤ)
      omega
    · intro hi
      funext a
      apply Fin.ext
      show (d.start j idx a + (d.window j a : ℤ)).toNat = (i a).val
      have := hi a
      omega
  · next h =>
    constructor
    · intro h'
      cases h'
    · intro hi
      exfalso
      apply h
      intro a
      have := hi a
      have := (i a).isLt
      omega

/-- The dimension numbers of a row scatter: the updates' axis 1 is the window, going to the operand's axis 1; the
    operand's axis 0 is inserted and is the one the scatter index names; the index vector is the column's axis 1. -/
abbrev rowsDims (N M D : Nat)
    (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Where update `(v, k')` of a row scatter lands: at `(g, k)` exactly when `v`'s index, read signed, is `g` and
    `k' = k` (the window starts at row = the index, column 0, and the window coordinate is `k'` on the column axis). -/
theorem rows_resultIdx?_iff {N M D w : Nat} (wf : ScatterDims.WF ⟨2, ![N, D]⟩ ⟨2, ![M, 1]⟩ ⟨2, ![M, D]⟩ [1] [0] [0] 1)
    (idx : IVec ⟨2, ![M, 1]⟩ w) (v : Fin M) (k' : Fin D) (g : Fin N) (k : Fin D) :
    (rowsDims N M D wf).resultIdx? (ix2 v k') idx = some (ix2 g k)
      ↔ (idx (ix2 v (0 : Fin 1))).toInt = (g.val : ℤ) ∧ k' = k := by
  rw [resultIdx?_eq_some_iff]
  -- the scatter index of update `(v, k')` is read at `(v, 0)`
  have hsi : (rowsDims N M D wf).siIdx (ix2 v k') ⟨0, Nat.one_pos⟩ = ix2 v (0 : Fin 1) := by
    funext b
    match b with
    | ⟨0, _⟩ => rfl
    | ⟨1, _⟩ => rfl
  -- starts and window coordinates on the two operand axes
  have e0 : (rowsDims N M D wf).start (ix2 v k') idx 0 = (idx (ix2 v (0 : Fin 1))).toInt := by rw [← hsi]; rfl
  have e1 : (rowsDims N M D wf).start (ix2 v k') idx 1 = 0 := rfl
  have w0 : (rowsDims N M D wf).window (ix2 v k') 0 = 0 := rfl
  have w1 : (rowsDims N M D wf).window (ix2 v k') 1 = k'.val := rfl
  constructor
  · intro h
    have h0 : (rowsDims N M D wf).start (ix2 v k') idx 0 + ((rowsDims N M D wf).window (ix2 v k') 0 : ℤ) = (g.val : ℤ) := h 0
    have h1 : (rowsDims N M D wf).start (ix2 v k') idx 1 + ((rowsDims N M D wf).window (ix2 v k') 1 : ℤ) = (k.val : ℤ) := h 1
    rw [e0, w0] at h0
    rw [e1, w1] at h1
    refine ⟨by simpa using h0, Fin.ext ?_⟩
    omega
  · rintro ⟨hg, rfl⟩
    have t0 : (rowsDims N M D wf).start (ix2 v k') idx 0 + ((rowsDims N M D wf).window (ix2 v k') 0 : ℤ) = (g.val : ℤ) := by
      rw [e0, w0, hg]; simp
    have t1 : (rowsDims N M D wf).start (ix2 v k') idx 1 + ((rowsDims N M D wf).window (ix2 v k') 1 : ℤ) = (k'.val : ℤ) := by
      rw [e1, w1]; simp
    intro a
    match a with
    | ⟨0, _⟩ => exact t0
    | ⟨1, _⟩ => exact t1

/-- A row scatter-add (`x.at[idx].add(u)` over the first axis of a matrix, the indices an [M × 1] column): element
    `(g, k)` of the result is the operand's plus the sum of the updates' column-`k` entries of the rows `v` whose
    index, read signed, is `g`; a row whose index is outside `[0, N)` lands nowhere. -/
theorem scatterAdd_rows_apply {N M D w : Nat} (d : ScatterDims ⟨2, ![N, D]⟩ ⟨2, ![M, 1]⟩ ⟨2, ![M, D]⟩)
    (huw : d.updateWindowDims = [1]) (hiw : d.insertedWindowDims = [0]) (hsd : d.scatterDimsToOperandDims = [0])
    (hiv : d.indexVectorDim = 1)
    (x : (⟨2, ![N, D]⟩ : Shape).Idx → EReal) (idx : IVec ⟨2, ![M, 1]⟩ w) (upd : (⟨2, ![M, D]⟩ : Shape).Idx → EReal)
    (g : Fin N) (k : Fin D) :
    Ideal.hostScatterAdd d x idx upd (ix2 g k)
      = x (ix2 g k) + ∑ v ∈ Finset.univ.filter (fun v : Fin M => (idx (ix2 v (0 : Fin 1))).toInt = (g.val : ℤ)), upd (ix2 v k) := by
  obtain ⟨uw, iw, sd, iv, wf⟩ := d
  dsimp only at huw hiw hsd hiv
  subst huw hiw hsd hiv
  show x (ix2 g k) + ∑ j ∈ Finset.univ.filter (fun j => (rowsDims N M D wf).resultIdx? j idx = some (ix2 g k)), upd j = _
  congr 1
  -- the sum over the updates `(v, k')` that land at `(g, k)`, as a double sum over rows and columns
  rw [Finset.sum_filter, Finset.sum_filter, sum_idx2]
  refine Finset.sum_congr rfl fun v _ => ?_
  simp only [rows_resultIdx?_iff]
  by_cases hv : (idx (ix2 v (0 : Fin 1))).toInt = (g.val : ℤ)
  · simp [hv]
  · simp [hv]

/-- The dimension numbers of a flat scatter: the updates have no window axis; the operand's one axis is inserted and
    is the one the scatter index names; the index vector is the column's axis 1. -/
abbrev flatDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Where update `v` of a flat scatter lands: at `g` exactly when `v`'s index, read signed, is `g` (the window is
    the one element at the index). -/
theorem flat_resultIdx?_iff {N M w : Nat} (wf : ScatterDims.WF ⟨1, ![N]⟩ ⟨2, ![M, 1]⟩ ⟨1, ![M]⟩ [] [0] [0] 1)
    (idx : IVec ⟨2, ![M, 1]⟩ w) (v : Fin M) (g : Fin N) :
    (flatDims N M wf).resultIdx? (ix1 v) idx = some (ix1 g) ↔ (idx (ix2 v (0 : Fin 1))).toInt = (g.val : ℤ) := by
  rw [resultIdx?_eq_some_iff]
  -- the scatter index of update `v` is read at `(v, 0)`
  have hsi : (flatDims N M wf).siIdx (ix1 v) ⟨0, Nat.one_pos⟩ = ix2 v (0 : Fin 1) := by
    funext b
    match b with
    | ⟨0, _⟩ => rfl
    | ⟨1, _⟩ => rfl
  have e0 : (flatDims N M wf).start (ix1 v) idx 0 = (idx (ix2 v (0 : Fin 1))).toInt := by rw [← hsi]; rfl
  have w0 : (flatDims N M wf).window (ix1 v) 0 = 0 := rfl
  constructor
  · intro h
    have h0 : (flatDims N M wf).start (ix1 v) idx 0 + ((flatDims N M wf).window (ix1 v) 0 : ℤ) = (g.val : ℤ) := h 0
    rw [e0, w0] at h0
    simpa using h0
  · intro hg
    have t0 : (flatDims N M wf).start (ix1 v) idx 0 + ((flatDims N M wf).window (ix1 v) 0 : ℤ) = (g.val : ℤ) := by
      rw [e0, w0, hg]; simp
    intro a
    match a with
    | ⟨0, _⟩ => exact t0

/-- A flat scatter-add (`x.at[idx].add(u)` over a vector): element `g` is the operand's plus the sum of the updates
    whose index, read signed, is `g`. -/
theorem scatterAdd_flat_apply {N M w : Nat} (d : ScatterDims ⟨1, ![N]⟩ ⟨2, ![M, 1]⟩ ⟨1, ![M]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![M, 1]⟩ w) (upd : (⟨1, ![M]⟩ : Shape).Idx → EReal)
    (g : Fin N) :
    Ideal.hostScatterAdd d x idx upd (ix1 g)
      = x (ix1 g) + ∑ v ∈ Finset.univ.filter (fun v : Fin M => (idx (ix2 v (0 : Fin 1))).toInt = (g.val : ℤ)), upd (ix1 v) := by
  obtain ⟨uw, iw, sd, iv, wf⟩ := d
  dsimp only at huw hiw hsd hiv
  subst huw hiw hsd hiv
  show x (ix1 g) + ∑ j ∈ Finset.univ.filter (fun j => (flatDims N M wf).resultIdx? j idx = some (ix1 g)), upd j = _
  congr 1
  -- the updates' index set is its one coordinate's range
  rw [Finset.sum_filter, Finset.sum_filter, sum_idx1]
  refine Finset.sum_congr rfl fun v _ => ?_
  simp only [flat_resultIdx?_iff]

/-- A row gather (`x[idx]` over the first axis of a matrix, the indices an [M × 1] column): row `e` of the result
    is the operand's row at `e`'s index read signed and clamped into `[0, N − 1]`. -/
theorem gather_rows_apply {α : Type} {N M D w : Nat} (hN : 0 < N) (d : GatherDims ⟨2, ![N, D]⟩ ⟨2, ![M, 1]⟩ ⟨2, ![M, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, D])
    (x : (⟨2, ![N, D]⟩ : Shape).Idx → α) (idx : IVec ⟨2, ![M, 1]⟩ w) (e : Fin M) (k : Fin D) :
    Host.gather d x idx (ix2 e k) = x (ix2 (⟨min (idx (ix2 e (0 : Fin 1))).toInt.toNat (N - 1), by omega⟩ : Fin N) k) := by
  obtain ⟨od, cd, ob, sb, sm, iv, ss, wf⟩ := d
  dsimp only at hoff hcoll hob hsb hsim hivd hss
  subst hoff hcoll hob hsb hsim hivd hss
  unfold Host.gather
  congr 1
  funext a
  apply Fin.ext
  match a with
  | ⟨0, _⟩ =>
    -- the row axis: collapsed, start-indexed; the start index of result `(e, k)` is read at `(e, 0)`
    have hsi : (GatherDims.mk (s := ⟨2, ![N, D]⟩) (si := ⟨2, ![M, 1]⟩) (t := ⟨2, ![M, D]⟩) [1] [0] [] [] [0] 1 ![1, D] wf).siIdx
        (ix2 e k) ⟨0, Nat.one_pos⟩ = ix2 e (0 : Fin 1) := by
      funext b
      match b with
      | ⟨0, _⟩ => rfl
      | ⟨1, _⟩ => rfl
    show min (idx _).toInt.toNat (N - 1) + 0 + 0 = min (idx (ix2 e (0 : Fin 1))).toInt.toNat (N - 1)
    rw [← hsi]; rfl
  | ⟨1, _⟩ =>
    -- the column axis: kept, not start-indexed: start 0, offset coordinate `k`
    show 0 + 0 + k.val = k.val
    omega

end Idealize.ShloMosaic.ScatterRead

end
-- ==== Proof.LibPairScatter.lean ====
/-
  A host scatter-add into a matrix through index PAIRS, read at one element, at the extended reals: what
  `x.at[rows, cols].add(u)` holds at `(g, h)`, as the operand's element plus the sum of the updates whose pair of
  indices, read signed, is `(g, h)`.
  General lemmas over any sizes; they import no program.
-/
import proofs.«403867_j53893249630523_1_alg».proof.Proof.LibScatterRead

noncomputable section

open scoped BigOperators

namespace Idealize.ShloMosaic.ScatterRead

open Idealize.ShloMosaic Idealize.ShloMosaic.ValueIdx

/-- The dimension numbers of an element scatter into a matrix through index pairs: the updates have no window axis;
    both operand axes are inserted, and component 0 / 1 of the index vector names operand axis 0 / 1; the index
    vector is the pairs' axis 1. -/
abbrev pairsDims (N0 N1 M : Nat)
    (wf : ScatterDims.WF ⟨2, ![N0, N1]⟩ ⟨2, ![M, 2]⟩ ⟨1, ![M]⟩ [] [0, 1] [0, 1] 1) :
    ScatterDims ⟨2, ![N0, N1]⟩ ⟨2, ![M, 2]⟩ ⟨1, ![M]⟩ where
  updateWindowDims := []
  insertedWindowDims := [0, 1]
  scatterDimsToOperandDims := [0, 1]
  indexVectorDim := 1
  wf := wf

/-- Where update `v` of a pair scatter lands: at `(g, h)` exactly when `v`'s two indices, read signed, are `g` and
    `h` (the window is the one element at the pair). -/
theorem pairs_resultIdx?_iff {N0 N1 M w : Nat}
    (wf : ScatterDims.WF ⟨2, ![N0, N1]⟩ ⟨2, ![M, 2]⟩ ⟨1, ![M]⟩ [] [0, 1] [0, 1] 1)
    (idx : IVec ⟨2, ![M, 2]⟩ w) (v : Fin M) (g : Fin N0) (h : Fin N1) :
    (pairsDims N0 N1 M wf).resultIdx? (ix1 v) idx = some (ix2 g h)
      ↔ (idx (ix2 v (0 : Fin 2))).toInt = (g.val : ℤ) ∧ (idx (ix2 v (1 : Fin 2))).toInt = (h.val : ℤ) := by
  rw [resultIdx?_eq_some_iff]
  -- component `c` of the scatter index of update `v` is read at `(v, c)`
  have hsi0 : (pairsDims N0 N1 M wf).siIdx (ix1 v) ⟨0, Nat.zero_lt_two⟩ = ix2 v (0 : Fin 2) := by
    funext b
    match b with
    | ⟨0, _⟩ => rfl
    | ⟨1, _⟩ => rfl
  have hsi1 : (pairsDims N0 N1 M wf).siIdx (ix1 v) ⟨1, Nat.one_lt_two⟩ = ix2 v (1 : Fin 2) := by
    funext b
    match b with
    | ⟨0, _⟩ => rfl
    | ⟨1, _⟩ => rfl
  -- starts and window coordinates on the two operand axes
  have e0 : (pairsDims N0 N1 M wf).start (ix1 v) idx 0 = (idx (ix2 v (0 : Fin 2))).toInt := by rw [← hsi0]; rfl
  have e1 : (pairsDims N0 N1 M wf).start (ix1 v) idx 1 = (idx (ix2 v (1 : Fin 2))).toInt := by rw [← hsi1]; rfl
  have w0 : (pairsDims N0 N1 M wf).window (ix1 v) 0 = 0 := rfl
  have w1 : (pairsDims N0 N1 M wf).window (ix1 v) 1 = 0 := rfl
  constructor
  · intro hh
    have h0 : (pairsDims N0 N1 M wf).start (ix1 v) idx 0 + ((pairsDims N0 N1 M wf).window (ix1 v) 0 : ℤ) = (g.val : ℤ) := hh 0
    have h1 : (pairsDims N0 N1 M wf).start (ix1 v) idx 1 + ((pairsDims N0 N1 M wf).window (ix1 v) 1 : ℤ) = (h.val : ℤ) := hh 1
    rw [e0, w0] at h0
    rw [e1, w1] at h1
    exact ⟨by simpa using h0, by simpa using h1⟩
  · rintro ⟨hg, hh⟩
    have t0 : (pairsDims N0 N1 M wf).start (ix1 v) idx 0 + ((pairsDims N0 N1 M wf).window (ix1 v) 0 : ℤ) = (g.val : ℤ) := by
      rw [e0, w0, hg]; simp
    have t1 : (pairsDims N0 N1 M wf).start (ix1 v) idx 1 + ((pairsDims N0 N1 M wf).window (ix1 v) 1 : ℤ) = (h.val : ℤ) := by
      rw [e1, w1, hh]; simp
    intro a
    match a with
    | ⟨0, _⟩ => exact t0
    | ⟨1, _⟩ => exact t1

/-- A pair scatter-add (`x.at[rows, cols].add(u)` into a matrix, the indices an [M × 2] table of pairs): element
    `(g, h)` of the result is the operand's plus the sum of the updates `v` whose pair of indices, read signed, is
    `(g, h)`; an update whose pair is outside the matrix lands nowhere. -/
theorem scatterAdd_pairs_apply {N0 N1 M w : Nat} (d : ScatterDims ⟨2, ![N0, N1]⟩ ⟨2, ![M, 2]⟩ ⟨1, ![M]⟩)
    (huw : d.updateWindowDims = []) (hiw : d.insertedWindowDims = [0, 1]) (hsd : d.scatterDimsToOperandDims = [0, 1])
    (hiv : d.indexVectorDim = 1)
    (x : (⟨2, ![N0, N1]⟩ : Shape).Idx → EReal) (idx : IVec ⟨2, ![M, 2]⟩ w) (upd : (⟨1, ![M]⟩ : Shape).Idx → EReal)
    (g : Fin N0) (h : Fin N1) :
    Ideal.hostScatterAdd d x idx upd (ix2 g h)
      = x (ix2 g h) + ∑ v ∈ Finset.univ.filter (fun v : Fin M => (idx (ix2 v (0 : Fin 2))).toInt = (g.val : ℤ)
          ∧ (idx (ix2 v (1 : Fin 2))).toInt = (h.val : ℤ)), upd (ix1 v) := by
  obtain ⟨uw, iw, sd, iv, wf⟩ := d
  dsimp only at huw hiw hsd hiv
  subst huw hiw hsd hiv
  show x (ix2 g h) + ∑ j ∈ Finset.univ.filter (fun j => (pairsDims N0 N1 M wf).resultIdx? j idx = some (ix2 g h)), upd j = _
  congr 1
  -- the updates' index set is its one coordinate's range
  rw [Finset.sum_filter, Finset.sum_filter, sum_idx1]
  refine Finset.sum_congr rfl fun v _ => ?_
  simp only [pairs_resultIdx?_iff]

end Idealize.ShloMosaic.ScatterRead

end
-- ==== Proof.KernelHost.lean ====
/-
  The arrays the host prepares before the kernel's launch, read at an index.

  From the 384 edges the host builds the dense 68 × 64 matrix `wFull`: every edge's weight is added at the entry named
  by the pair (source word, destination word), each with the axis's extent added when it is negative; an edge whose pair
  falls outside the matrix adds nothing. Entry (g, h) therefore holds the sum of the weights of the edges whose wrapped
  source word, read signed, is g and whose wrapped destination word, read signed, is h. The kernel's two resident weight
  operands are rows 0..3 and rows 4..67 of that matrix; its bias, response and activation-id operands are the three
  64-vectors laid out as one row.
-/
import proofs.«403867_j53893249630523_1_alg».proof.Proof.Gen.KernelIdeal.Frame
import proofs.«403867_j53893249630523_1_alg».proof.Proof.Step
import proofs.«403867_j53893249630523_1_alg».proof.Proof.LibPairScatter
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

open scoped BigOperators

namespace Cert.KernelIdeal.HostArr

open Cert.KernelIdeal Cert.KernelIdeal.Gen Idealize.ShloMosaic Idealize.ShloMosaic.ValueIdx Idealize.ShloMosaic.TcCoe
open Idealize.SL.Sem Idealize.ShloMosaic.StableHlo

/-! ## The host's terms -/

/-- An index column: the words with `n` added where negative, as a 384 × 1 column. -/
def wrapCol (n : BitVec 32) (a : IVec S384 32) : IVec S384x1 32 :=
  broadcastInDim S384x1 ![0] bcast_S384_S384x1_0
    (select (cmpi .slt a (broadcastInDim S384 ![] bcast_S_S384 (constantI S_ 32 0#32)))
      (addi a (broadcastInDim S384 ![] bcast_S_S384 (constantI S_ 32 n))) a)

/-- The 384 × 2 table of (source, destination) pairs. -/
def pairs (a5 a6 : IVec S384 32) : IVec S384x2 32 :=
  concatenate S384x2 1 [⟨S384x1, wrapCol 68#32 a5⟩, ⟨S384x1, wrapCol 64#32 a6⟩] concatenates_S384x1_S384x1_S384x2_d1

/-- The dense matrix: the edge weights scatter-added into a zero 68 × 64 matrix at their pairs. -/
def wFull (a2 : FVec Ideal S384 .f32) (a5 a6 : IVec S384 32) : FVec Ideal S68x64 .f32 :=
  Host.scatterAdd scatter_S68x64_S384x2_S384_n_01_01_1
    (broadcastInDim S68x64 ![] bcast_S_S68x64 (constant S_ .f32 0x00000000#32)) (pairs a5 a6) a2

/-- An edge's destination word as the kernel's host code uses it: 64 added to a negative word. -/
def dstWord (dst : S384.Idx → BitVec 32) (e : Fin 384) : BitVec 32 :=
  Scalar.select (IntOp.cmpi .slt (dst (ix1 e)) 0#32) (IntOp.addi (dst (ix1 e)) 64#32) (dst (ix1 e))

/-! ## The pairs and the matrix at an index -/

/-- A wrapped column at row `e`. -/
theorem wrapCol_apply (n : BitVec 32) (a : IVec S384 32) (e : Fin 384) :
    wrapCol n a (ix2 e (0 : Fin 1))
      = Scalar.select (IntOp.cmpi .slt (a (ix1 e)) 0#32) (IntOp.addi (a (ix1 e)) n) (a (ix1 e)) := by
  unfold wrapCol
  refine (broadcastInDim_apply _ bcast_S384_S384x1_0 _ (ix2 e (0 : Fin 1)) (ix1 e) (fun ax => ?_)).trans ?_
  · match ax with
    | ⟨0, _⟩ => show e.val = if (384 : Nat) = 1 then 0 else e.val; rw [if_neg (by decide)]
  · rfl

/-- The pair table's first column is the wrapped source word … -/
theorem pairs_src (a5 a6 : IVec S384 32) (e : Fin 384) : pairs a5 a6 (ix2 e (0 : Fin 2)) = Cert.Step.srcWord a5 e := by
  unfold pairs
  refine (concatenate_pair_apply_left (1 : Fin S384x2.rank) (wrapCol 68#32 a5) (wrapCol 64#32 a6)
    concatenates_S384x1_S384x1_S384x2_d1 (ix2 e (0 : Fin 2)) rfl (ix2 e (0 : Fin 1)) (fun b => ?_)).trans ?_
  · match b with
    | ⟨0, _⟩ => rfl
    | ⟨1, _⟩ => rfl
  · exact wrapCol_apply 68#32 a5 e

/-- … and its second the wrapped destination word. -/
theorem pairs_dst (a5 a6 : IVec S384 32) (e : Fin 384) : pairs a5 a6 (ix2 e (1 : Fin 2)) = dstWord a6 e := by
  unfold pairs
  refine (concatenate_pair_apply_right (1 : Fin S384x2.rank) (wrapCol 68#32 a5) (wrapCol 64#32 a6)
    concatenates_S384x1_S384x1_S384x2_d1 (ix2 e (1 : Fin 2)) rfl rfl (ix2 e (0 : Fin 1)) (fun b hb => ?_) ?_).trans ?_
  · match b with
    | ⟨0, _⟩ => rfl
    | ⟨1, _⟩ => exact absurd rfl hb
  · rfl
  · exact wrapCol_apply 64#32 a6 e

/-- Entry (g, h) of the dense matrix: the weights of the edges whose wrapped pair, read signed, is (g, h). -/
theorem wFull_apply (a2 : FVec Ideal S384 .f32) (a5 a6 : IVec S384 32) (g : Fin 68) (h : Fin 64) :
    wFull a2 a5 a6 (ix2 g h)
      = ∑ e ∈ Finset.univ.filter (fun e : Fin 384 => (Cert.Step.srcWord a5 e).toInt = (g.val : ℤ)
          ∧ (dstWord a6 e).toInt = (h.val : ℤ)), a2 (ix1 e) := by
  unfold wFull
  refine (ScatterRead.scatterAdd_pairs_apply scatter_S68x64_S384x2_S384_n_01_01_1 rfl rfl rfl rfl _ (pairs a5 a6) a2 g h).trans ?_
  have hz : (broadcastInDim S68x64 ![] bcast_S_S68x64 (constant (F := Ideal) S_ .f32 0x00000000#32)) (ix2 g h) = 0 :=
    (broadcastInDim_apply _ bcast_S_S68x64 _ (ix2 g h) ix0 (fun a => a.elim0)).trans Ideal.ofBits_zero_f32
  rw [hz, zero_add]
  simp only [pairs_src, pairs_dst]

/-! ## The kernel's operands as the region finds them -/

variable (m : (ℓ : Loc nD τ sig) → Buf (Elt Ideal) ℓ)

set_option maxHeartbeats 4000000 in
/-- The input-side weight operand is rows 0..3 of the dense matrix. -/
theorem v15_eq (c : Dev nD) :
    (V m c main_v15 : S4x64.Idx → EReal)
      = extractStridedSlice S4x64 ![0, 0] (wFull (m ((c : Thread nD τ).loc main_arg2)) (m ((c : Thread nD τ).loc main_arg5))
          (m ((c : Thread nD τ).loc main_arg6))) slices_S68x64_S4x64_0_0 := by
  dsimp only [Gen.V, Gen.hostOps0]
  after_results
  rfl

set_option maxHeartbeats 4000000 in
/-- The state-side weight operand is rows 4..67. -/
theorem v16_eq (c : Dev nD) :
    (V m c main_v16 : S64x64.Idx → EReal)
      = extractStridedSlice S64x64 ![4, 0] (wFull (m ((c : Thread nD τ).loc main_arg2)) (m ((c : Thread nD τ).loc main_arg5))
          (m ((c : Thread nD τ).loc main_arg6))) slices_S68x64_S64x64_4_0 := by
  dsimp only [Gen.V, Gen.hostOps0]
  after_results
  rfl

/-- The bias, response and activation-id operands are the vectors as one row. -/
theorem v17_eq (c : Dev nD) :
    (V m c main_v17 : S1x64.Idx → EReal) = shapeCast S1x64 (m ((c : Thread nD τ).loc main_arg3)) shapeCasts_S64_S1x64 := by
  dsimp only [Gen.V, Gen.hostOps0]
  after_results
  rfl
theorem v18_eq (c : Dev nD) :
    (V m c main_v18 : S1x64.Idx → EReal) = shapeCast S1x64 (m ((c : Thread nD τ).loc main_arg4)) shapeCasts_S64_S1x64 := by
  dsimp only [Gen.V, Gen.hostOps0]
  after_results
  rfl
theorem v19_eq (c : Dev nD) :
    (V m c main_v19 : S1x64.Idx → BitVec 32) = shapeCast S1x64 (m ((c : Thread nD τ).loc main_arg7)) shapeCasts_S64_S1x64 := by
  dsimp only [Gen.V, Gen.hostOps0]
  after_results
  rfl

end Cert.KernelIdeal.HostArr

end
-- ==== Proof.LibEdgeSum.lean ====
/-
  Message passing over a fixed edge list, as a dense product.

  Every edge `e` carries a weight `w e`, reads the source column `s e` of a row `a` and adds `a (s e) * w e` into its
  destination. Summed over the edges of one destination (those with `P e`) this is the row times one column of the
  dense matrix whose entry `k` collects the weights of the edges from `k`:
      ∑ k, a k * (∑ e with s e = k and P e, w e) = ∑ e with P e, a (s e) * w e.
  On the extended reals the left side distributes `a k` over a sum, which is sound for real entries (not at the
  infinities): the statement is over real `a` and `w`, coerced.
  General lemmas over any finite index types; they import no program.
-/
import Idealize.ShloMosaic.PureOps.Ideal.Laws

noncomputable section

open scoped BigOperators

namespace Idealize.ShloMosaic.EdgeSum

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: the row times the collected column is the sum over the destination's edges. Each edge has exactly
    one source, so exchanging the two sums leaves one term per edge. -/
theorem dense_eq_edges_real {E K : Type*} [Fintype E] [Fintype K] [DecidableEq K] (a : K → ℝ) (w : E → ℝ) (s : E → K)
    (P : E → Prop) [DecidablePred P] :
    ∑ k, a k * ∑ e ∈ Finset.univ.filter (fun e => s e = k ∧ P e), w e = ∑ e ∈ Finset.univ.filter P, a (s e) * w e := by
  simp only [Finset.mul_sum, Finset.sum_filter]
  rw [Finset.sum_comm]
  refine Finset.sum_congr rfl fun e _ => ?_
  by_cases hP : P e
  · simp [hP, Finset.sum_ite_eq]
  · simp [hP]

/-- The same on the extended reals, for real entries. -/
theorem dense_eq_edges {E K : Type*} [Fintype E] [Fintype K] [DecidableEq K] (a : K → ℝ) (w : E → ℝ) (s : E → K)
    (P : E → Prop) [DecidablePred P] :
    ∑ k, (a k : EReal) * ∑ e ∈ Finset.univ.filter (fun e => s e = k ∧ P e), (w e : EReal)
      = ∑ e ∈ Finset.univ.filter P, (a (s e) : EReal) * (w e : EReal) := by
  simp only [← coe_sum, ← EReal.coe_mul]
  rw [dense_eq_edges_real]

end Idealize.ShloMosaic.EdgeSum

end
-- ==== Proof.Bridge.lean ====
/-
  The dense product is the sum over the edges.

  The kernel multiplies row `n` of the activations — 4 inputs, then 64 previous states — by the dense 68 × 64 matrix whose
  entry (k, j) collects the weights of the edges from column k into neuron j; the specification sums, over the edges into
  neuron j, the activation the edge reads times the edge's weight. With every source word in [-68, 68) the wrapped word
  names a column in [0, 67] (nothing is clamped, nothing is dropped), and with every destination word in [0, 64) nothing
  is wrapped; with real activations and weights the product distributes over the collected sum, and each edge has
  exactly one source column, so the two agree.
-/
import proofs.«403867_j53893249630523_1_alg».proof.Proof.Step
import proofs.«403867_j53893249630523_1_alg».proof.Proof.LibEdgeSum
import Idealize.ShloMosaic.Lib.Affine

noncomputable section

open scoped BigOperators

namespace Cert.Step

open Idealize.ShloMosaic Idealize.ShloMosaic.ValueIdx

/-! ## The index words -/

/-- A source word in [-68, 68), with 68 added when it is negative, is in [0, 67]: the column it names exists. -/
theorem wrapped_src_range (w : BitVec 32) (hlo : -68 ≤ w.toInt) (hhi : w.toInt < 68) :
    0 ≤ (Scalar.select (IntOp.cmpi .slt w 0#32) (IntOp.addi w 68#32) w).toInt
      ∧ (Scalar.select (IntOp.cmpi .slt w 0#32) (IntOp.addi w 68#32) w).toInt < 68 := by
  unfold Scalar.select
  by_cases hneg : IntOp.cmpi .slt w 0#32 = 1
  · rw [if_pos hneg]
    have h0 : w.toInt < 0 := by
      have := IntOp.cmpi_slt.1 hneg
      simpa using this
    have hadd : (IntOp.addi w 68#32).toInt = w.toInt + 68 := by
      unfold IntOp.addi
      rw [BitVec.toInt_add]
      have : (68#32 : BitVec 32).toInt = 68 := by decide
      rw [this]
      exact Int.bmod_eq_of_le (by omega) (by omega)
    rw [hadd]
    omega
  · rw [if_neg hneg]
    have h0 : ¬ w.toInt < 0 := fun h => hneg (IntOp.cmpi_slt.2 (by simpa using h))
    omega

/-- A destination word that is not negative is left as it is. -/
theorem wrapped_dst_eq (w : BitVec 32) (hlo : 0 ≤ w.toInt) :
    Scalar.select (IntOp.cmpi .slt w 0#32) (IntOp.addi w 64#32) w = w := by
  unfold Scalar.select
  refine if_neg fun hneg => ?_
  have h0 : w.toInt < 0 := by
    have := IntOp.cmpi_slt.1 hneg
    simpa using this
  omega

/-- With its word in range, an edge's wrapped source word read signed is `k` exactly when the column it reads is `k`. -/
theorem srcWord_eq_iff (src : SE.Idx → BitVec 32) (e : Fin 384)
    (h : -68 ≤ (src (ix1 e)).toInt ∧ (src (ix1 e)).toInt < 68) (k : Fin 68) :
    (srcWord src e).toInt = (k.val : ℤ) ↔ srcRow src e = k := by
  have hr := wrapped_src_range (src (ix1 e)) h.1 h.2
  have hk := k.isLt
  unfold srcRow
  rw [Fin.ext_iff]
  show (srcWord src e).toInt = (k.val : ℤ) ↔ min (srcWord src e).toInt.toNat 67 = k.val
  have h0 : 0 ≤ (srcWord src e).toInt := hr.1
  have h1 : (srcWord src e).toInt < 68 := hr.2
  omega

/-! ## Rows of activations -/

/-- The 68 activations of a row, split into the 4 inputs and the 64 previous states. -/
theorem sum_allAct (inp : SN4.Idx → EReal) (prev : SN64.Idx → EReal) (n : Fin 262144) (g : Fin 68 → EReal) :
    ∑ k : Fin 68, allAct inp prev n k * g k
      = (∑ k : Fin 4, inp (ix2 n k) * g ⟨k.val, by omega⟩) + ∑ k : Fin 64, prev (ix2 n k) * g ⟨k.val + 4, by omega⟩ := by
  rw [show (∑ k : Fin 68, allAct inp prev n k * g k) = ∑ k : Fin (4 + 64), allAct inp prev n k * g k from rfl,
    Fin.sum_univ_add]
  refine congrArg₂ (· + ·) (Finset.sum_congr rfl fun k _ => ?_) (Finset.sum_congr rfl fun k _ => ?_)
  · have hk : (Fin.castAdd 64 k).val < 4 := k.isLt
    unfold allAct
    rw [dif_pos hk]
    rfl
  · have hk : ¬ (Fin.natAdd 4 k).val < 4 := by show ¬ 4 + k.val < 4; omega
    unfold allAct
    rw [dif_neg hk]
    congr 2
    · congr 1; exact Fin.ext (by show 4 + k.val - 4 = k.val; omega)
    · exact Fin.ext (by show 4 + k.val = k.val + 4; omega)

/-- A row of real inputs and real previous states is a row of real activations. -/
theorem allAct_coe (ri : SN4.Idx → ℝ) (rp : SN64.Idx → ℝ) (n : Fin 262144) (k : Fin 68) :
    allAct (fun i => (ri i : EReal)) (fun i => (rp i : EReal)) n k
      = ((if h : k.val < 4 then ri (ix2 n ⟨k.val, h⟩) else rp (ix2 n ⟨k.val - 4, by omega⟩) : ℝ) : EReal) := by
  unfold allAct
  split <;> rfl

/-! ## The dense product -/

/-- The dense matrix's entry: the weights of the edges whose wrapped source word is `g` and wrapped destination word `h`. -/
def dense (w : SE.Idx → EReal) (src dst : SE.Idx → BitVec 32) (g : Fin 68) (h : Fin 64) : EReal :=
  ∑ e ∈ Finset.univ.filter (fun e : Fin 384 => (srcWord src e).toInt = (g.val : ℤ)
    ∧ (Scalar.select (IntOp.cmpi .slt (dst (ix1 e)) 0#32) (IntOp.addi (dst (ix1 e)) 64#32) (dst (ix1 e))).toInt = (h.val : ℤ)),
      w (ix1 e)

/-- THE BRIDGE: row `n` times column `j` of the dense matrix is what the edges into neuron `j` bring. -/
theorem dense_eq_agg (inp : SN4.Idx → EReal) (prev : SN64.Idx → EReal) (w : SE.Idx → EReal) (src dst : SE.Idx → BitVec 32)
    (hinp : ∀ i, ∃ r : ℝ, inp i = (r : EReal)) (hprev : ∀ i, ∃ r : ℝ, prev i = (r : EReal))
    (hw : ∀ i, ∃ r : ℝ, w i = (r : EReal))
    (hsrc : ∀ e : Fin 384, -68 ≤ (src (ix1 e)).toInt ∧ (src (ix1 e)).toInt < 68)
    (hdst : ∀ e : Fin 384, 0 ≤ (dst (ix1 e)).toInt ∧ (dst (ix1 e)).toInt < 64)
    (n : Fin 262144) (j : Fin 64) :
    (∑ k : Fin 4, inp (ix2 n k) * dense w src dst ⟨k.val, by omega⟩ j)
        + ∑ k : Fin 64, prev (ix2 n k) * dense w src dst ⟨k.val + 4, by omega⟩ j
      = agg inp prev w src dst n j := by
  rw [← sum_allAct inp prev n (fun g => dense w src dst g j)]
  -- the entries and the weights are reals
  choose ri hri using hinp
  choose rp hrp using hprev
  choose rw' hrw using hw
  obtain rfl : inp = fun i => (ri i : EReal) := funext hri
  obtain rfl : prev = fun i => (rp i : EReal) := funext hrp
  obtain rfl : w = fun i => (rw' i : EReal) := funext hrw
  -- the dense entry in terms of the column an edge reads and its unwrapped destination
  have hd : ∀ g : Fin 68, dense (fun i => (rw' i : EReal)) src dst g j
      = ∑ e ∈ Finset.univ.filter (fun e : Fin 384 => srcRow src e = g ∧ (dst (ix1 e)).toInt = (j.val : ℤ)),
          ((rw' (ix1 e) : ℝ) : EReal) := by
    intro g
    unfold dense
    refine Finset.sum_congr (Finset.filter_congr fun e _ => ?_) fun _ _ => rfl
    rw [wrapped_dst_eq _ (hdst e).1, srcWord_eq_iff src e (hsrc e) g]
  simp only [hd, allAct_coe]
  unfold agg
  simp only [allAct_coe]
  exact EdgeSum.dense_eq_edges (fun k : Fin 68 => if h : k.val < 4 then ri (ix2 n ⟨k.val, h⟩) else rp (ix2 n ⟨k.val - 4, by omega⟩))
    (fun e : Fin 384 => rw' (ix1 e)) (srcRow src) (fun e => (dst (ix1 e)).toInt = (j.val : ℤ))

end Cert.Step

end
-- ==== Proof.KernelStep.lean ====
/-
  The kernel's new state is the specification's, under the precondition's facts.

  The kernel's operands are read back to the arguments: the inputs and previous states as launched; the two weight
  operands rows 0..3 and 4..67 of the dense matrix the host built from the edges; the bias, response and activation ids
  the three vectors as one row. Row `n` against column `j` of the dense matrix is then what the edges into neuron `j`
  bring (real entries, source words in [-68, 68), destination words in [0, 64)), and the rest of the formula is the same
  on both sides.
-/
import proofs.«403867_j53893249630523_1_alg».proof.Proof.KernelArray
import proofs.«403867_j53893249630523_1_alg».proof.Proof.KernelHost
import proofs.«403867_j53893249630523_1_alg».proof.Proof.Bridge
import Idealize.ShloMosaic.Lib.ValueLayout

noncomputable section

open scoped BigOperators

namespace Cert.KernelIdeal.Arr

open Cert.KernelIdeal Cert.KernelIdeal.Gen Idealize.ShloMosaic Idealize.ShloMosaic.ValueIdx Idealize.ShloMosaic.TcCoe
open Idealize.SL.Sem

variable (m : (ℓ : Loc nD τ sig) → Buf (Elt Ideal) ℓ)

/-- The arguments at their literal types. -/
abbrev a0 (c : Dev nD) : S262144x4.Idx → EReal := m ((c : Thread nD τ).loc main_arg0)
abbrev a1 (c : Dev nD) : S262144x64.Idx → EReal := m ((c : Thread nD τ).loc main_arg1)
abbrev a2 (c : Dev nD) : S384.Idx → EReal := m ((c : Thread nD τ).loc main_arg2)
abbrev a3 (c : Dev nD) : S64.Idx → EReal := m ((c : Thread nD τ).loc main_arg3)
abbrev a4 (c : Dev nD) : S64.Idx → EReal := m ((c : Thread nD τ).loc main_arg4)
abbrev a5 (c : Dev nD) : S384.Idx → BitVec 32 := m ((c : Thread nD τ).loc main_arg5)
abbrev a6 (c : Dev nD) : S384.Idx → BitVec 32 := m ((c : Thread nD τ).loc main_arg6)
abbrev a7 (c : Dev nD) : S64.Idx → BitVec 32 := m ((c : Thread nD τ).loc main_arg7)

/-- The input-side weight operand at (k, j) is the dense matrix's entry (k, j). -/
theorem win_eq (c : Dev nD) (k : Fin 4) (j : Fin 64) :
    winA m c (ix2 k j) = Cert.Step.dense (a2 m c) (a5 m c) (a6 m c) ⟨k.val, by omega⟩ j := by
  show (V m c main_v15 : S4x64.Idx → EReal) (ix2 k j) = _
  rw [HostArr.v15_eq]
  refine (slice2_axis0_apply 0 _ slices_S68x64_S4x64_0_0 k j ⟨k.val, by omega⟩ (Nat.zero_add _).symm).trans ?_
  exact HostArr.wFull_apply _ _ _ _ _

/-- The state-side weight operand at (k, j) is the dense matrix's entry (k + 4, j). -/
theorem wst_eq (c : Dev nD) (k : Fin 64) (j : Fin 64) :
    wstA m c (ix2 k j) = Cert.Step.dense (a2 m c) (a5 m c) (a6 m c) ⟨k.val + 4, by omega⟩ j := by
  show (V m c main_v16 : S64x64.Idx → EReal) (ix2 k j) = _
  rw [HostArr.v16_eq]
  refine (slice2_axis0_apply 4 _ slices_S68x64_S64x64_4_0 k j ⟨k.val + 4, by omega⟩ (Nat.add_comm _ _)).trans ?_
  exact HostArr.wFull_apply _ _ _ _ _

/-- The one-row operands at (0, j) are the vectors at j. -/
theorem bias_eq (c : Dev nD) (j : Fin 64) : biasA m c (ix2 0 j) = a3 m c (ix1 j) := by
  show (V m c main_v17 : S1x64.Idx → EReal) (ix2 0 j) = _
  rw [HostArr.v17_eq]
  exact shapeCast_a_1a_apply _ shapeCasts_S64_S1x64 0 j
theorem resp_eq (c : Dev nD) (j : Fin 64) : respA m c (ix2 0 j) = a4 m c (ix1 j) := by
  show (V m c main_v18 : S1x64.Idx → EReal) (ix2 0 j) = _
  rw [HostArr.v18_eq]
  exact shapeCast_a_1a_apply _ shapeCasts_S64_S1x64 0 j
theorem act_eq (c : Dev nD) (j : Fin 64) : actA m c (ix2 0 j) = a7 m c (ix1 j) := by
  show (V m c main_v19 : S1x64.Idx → BitVec 32) (ix2 0 j) = _
  rw [HostArr.v19_eq]
  exact shapeCast_a_1a_apply _ shapeCasts_S64_S1x64 0 j

/-- THE KERNEL'S STATE IS THE SPECIFICATION'S, for real inputs, previous states and weights and in-range edge words. -/
theorem kstate_eq (c : Dev nD)
    (hinp : ∀ i, ∃ r : ℝ, a0 m c i = (r : EReal)) (hprev : ∀ i, ∃ r : ℝ, a1 m c i = (r : EReal))
    (hw : ∀ i, ∃ r : ℝ, a2 m c i = (r : EReal))
    (hsrc : ∀ e : Fin 384, -68 ≤ (a5 m c (ix1 e)).toInt ∧ (a5 m c (ix1 e)).toInt < 68)
    (hdst : ∀ e : Fin 384, 0 ≤ (a6 m c (ix1 e)).toInt ∧ (a6 m c (ix1 e)).toInt < 64)
    (n : Fin 262144) (j : Fin 64) :
    kstate m c n j = Cert.Step.state (a0 m c) (a1 m c) (a2 m c) (a3 m c) (a4 m c) (a5 m c) (a6 m c) (a7 m c) n j := by
  unfold kstate Cert.Step.state
  rw [act_eq, bias_eq, resp_eq]
  have ein : ∀ k : Fin 4, inpA m c (ix2 n k) = a0 m c (ix2 n k) := fun k => congrFun (V_main_arg0 m c) _
  have eprev : ∀ k : Fin 64, prevA m c (ix2 n k) = a1 m c (ix2 n k) := fun k => congrFun (V_main_arg1 m c) _
  simp only [ein, eprev]
  have e1 : (∑ k : Fin 4, a0 m c (ix2 n k) * winA m c (ix2 k j))
      = ∑ k : Fin 4, a0 m c (ix2 n k) * Cert.Step.dense (a2 m c) (a5 m c) (a6 m c) ⟨k.val, by omega⟩ j :=
    Finset.sum_congr rfl fun k _ => by rw [win_eq m c k j]
  have e2 : (∑ k : Fin 64, a1 m c (ix2 n k) * wstA m c (ix2 k j))
      = ∑ k : Fin 64, a1 m c (ix2 n k) * Cert.Step.dense (a2 m c) (a5 m c) (a6 m c) ⟨k.val + 4, by omega⟩ j :=
    Finset.sum_congr rfl fun k _ => by rw [wst_eq m c k j]
  rw [e1, e2, Cert.Step.dense_eq_agg (a0 m c) (a1 m c) (a2 m c) (a5 m c) (a6 m c) hinp hprev hw hsrc hdst n j]

end Cert.KernelIdeal.Arr

end
-- ==== Proof.RefStep.lean ====
/-
  The reference's result is the specification, index by index, for every input.

  The reference joins the input and the previous state into one [262144 × 68] array of activations, exchanges its
  axes, and for each of the 384 edges takes the row named by the edge's source word (68 added to a negative word, the
  result kept inside [0, 67]), scales it by the edge's weight, and adds it into the row of the edge's destination
  neuron; an edge whose destination word, read signed, is no neuron adds nothing. Read at neuron `j` and batch row
  `n` this is the sum, over the edges whose destination is `j`, of the source activation times the weight: the
  specification's aggregate. The bias, the response and the activation chosen by the neuron's id follow pointwise
  (the quotient 1 / (1 + exp (-x)) is the logistic function, the float word 0x3F800000 being the number one), and
  the result is exchanged back to rows by neurons; the output keeps its last four columns.

  Each stage is read over explicit coordinates: an edge `e`, a batch row `n`, a neuron `j`.
-/
import proofs.«403867_j53893249630523_1_alg».proof.Proof.Gen.ReferenceIdeal.Read
import proofs.«403867_j53893249630523_1_alg».proof.Proof.Step
import proofs.«403867_j53893249630523_1_alg».proof.Proof.LibScatterRead

noncomputable section

open scoped BigOperators

namespace Cert.ReferenceIdeal.RefStep

open Cert.ReferenceIdeal Cert.ReferenceIdeal.Gen Cert.ReferenceIdeal.Read Idealize.ShloMosaic Idealize.ShloMosaic.ValueIdx

/-- The index column's entry of edge `e` is read from the edge's own position. -/
theorem idx7 (e : Fin 384) : idx_main_v7 (ix2 e (0 : Fin 1)) = ix1 e :=
  funext fun a => Fin.ext (by match a with | ⟨0, _⟩ => rfl)

/-- The index column read at edge `e`: the source word with 68 added when it is negative. -/
theorem srcWord_eq (x5 : IVec S384 32) (e : Fin 384) :
    val_main_v7 (F := Ideal) x5 (ix2 e (0 : Fin 1)) = Cert.Step.srcWord x5 e := by
  rw [val_main_v7_apply, idx7, val_main_v6_apply, val_main_v3_apply, val_main_v5_apply, val_main_v2_apply,
    val_main_v4_apply, val_main_c_apply, val_main_c_0_apply]
  rfl

/-- Exchanging the axes: column `k`, row `n` of the exchanged array is row `n`, column `k` of the joined one. -/
theorem idx1 (k : Fin 68) (n : Fin 262144) : idx_main_v1 (ix2 k n) = ix2 n k :=
  funext fun a => Fin.ext (by match a with | ⟨0, _⟩ => rfl | ⟨1, _⟩ => rfl)

/-- The joined activations at row `n`, column `k`: the input's column below 4, the previous state's column `k - 4` from 4 on. -/
theorem concat_eq (x0 : FVec Ideal S262144x4 .f32) (x1 : FVec Ideal S262144x64 .f32) (n : Fin 262144) (k : Fin 68) :
    val_main_v0 (F := Ideal) x0 x1 (ix2 n k) = Cert.Step.allAct x0 x1 n k := by
  unfold val_main_v0 Cert.Step.allAct
  by_cases h : k.val < 4
  · rw [dif_pos h]
    exact concatenate_pair_apply_left (1 : Fin S262144x68.rank) x0 x1 concatenates_S262144x4_S262144x64_S262144x68_d1
      (ix2 n k) rfl (ix2 n ⟨k.val, h⟩) (fun b => match b with
        | ⟨0, _⟩ => rfl
        | ⟨1, _⟩ => rfl)
  · rw [dif_neg h]
    exact concatenate_pair_apply_right (1 : Fin S262144x68.rank) x0 x1 concatenates_S262144x4_S262144x64_S262144x68_d1
      (ix2 n k) rfl rfl (ix2 n ⟨k.val - 4, by omega⟩) (fun b => match b with
        | ⟨0, _⟩ => fun _ => rfl
        | ⟨1, _⟩ => fun hb => absurd rfl hb)
      (by show (k.val - 4) + 4 = k.val; omega)

/-- The exchanged array at activation column `k`, batch row `n`. -/
theorem transposed_eq (x0 : FVec Ideal S262144x4 .f32) (x1 : FVec Ideal S262144x64 .f32) (k : Fin 68) (n : Fin 262144) :
    val_main_v1 (F := Ideal) x0 x1 (ix2 k n) = Cert.Step.allAct x0 x1 n k := by
  rw [val_main_v1_apply, idx1, concat_eq]

/-- The gathered row of edge `e` at batch row `n`: the activation in the edge's source column. -/
theorem gathered_eq (x0 : FVec Ideal S262144x4 .f32) (x1 : FVec Ideal S262144x64 .f32) (x5 : IVec S384 32)
    (e : Fin 384) (n : Fin 262144) :
    val_main_v8 (F := Ideal) x0 x1 x5 (ix2 e n) = Cert.Step.allAct x0 x1 n (Cert.Step.srcRow x5 e) := by
  unfold val_main_v8
  rw [ScatterRead.gather_rows_apply (N := 68) (M := 384) (D := 262144) (by decide)
    gather_S68x262144_S384x1_S384x262144_1_0_n_n_0_1_1262144 rfl rfl rfl rfl rfl rfl rfl]
  rw [transposed_eq]
  congr 1
  apply Fin.ext
  show min (val_main_v7 (F := Ideal) x5 (ix2 e (0 : Fin 1))).toInt.toNat (68 - 1) = min (Cert.Step.srcWord x5 e).toInt.toNat 67
  rw [srcWord_eq]

/-- The weight column, spread along the batch rows, is read at the edge's own position. -/
theorem idx9_10 (e : Fin 384) (n : Fin 262144) : idx_main_v9 (idx_main_v10 (ix2 e n)) = ix1 e :=
  funext fun a => Fin.ext (by match a with | ⟨0, _⟩ => rfl)

/-- The message edge `e` sends for row `n`: the source activation scaled by the edge's weight. -/
theorem message_eq (x0 : FVec Ideal S262144x4 .f32) (x1 : FVec Ideal S262144x64 .f32) (x2 : FVec Ideal S384 .f32)
    (x5 : IVec S384 32) (e : Fin 384) (n : Fin 262144) :
    val_main_v11 (F := Ideal) x0 x1 x2 x5 (ix2 e n)
      = Cert.Step.allAct x0 x1 n (Cert.Step.srcRow x5 e) * x2 (ix1 e) := by
  rw [val_main_v11_apply, gathered_eq, val_main_v10_apply, val_main_v9_apply, idx9_10]
  rfl

/-- The destination column's entry of edge `e` is read from the edge's own position. -/
theorem idx13 (e : Fin 384) : idx_main_v13 (ix2 e (0 : Fin 1)) = ix1 e :=
  funext fun a => Fin.ext (by match a with | ⟨0, _⟩ => rfl)

/-- The segment sum: neuron `j` collects the messages of the edges whose destination word, read signed, is `j`. -/
theorem aggregate_eq (x0 : FVec Ideal S262144x4 .f32) (x1 : FVec Ideal S262144x64 .f32) (x2 : FVec Ideal S384 .f32)
    (x5 x6 : IVec S384 32) (j : Fin 64) (n : Fin 262144) :
    val_main_v14 (F := Ideal) x0 x1 x2 x5 x6 (ix2 j n) = Cert.Step.agg x0 x1 x2 x5 x6 n j := by
  unfold val_main_v14 Cert.Step.agg
  show Ideal.hostScatterAdd scatter_S64x262144_S384x1_S384x262144_1_0_0_1 (val_main_v12 (F := Ideal))
    (val_main_v13 (F := Ideal) x6) (val_main_v11 (F := Ideal) x0 x1 x2 x5) (ix2 j n) = _
  rw [ScatterRead.scatterAdd_rows_apply (N := 64) (M := 384) (D := 262144)
    scatter_S64x262144_S384x1_S384x262144_1_0_0_1 rfl rfl rfl rfl]
  rw [val_main_v12_apply, val_main_cst_apply]
  show Ideal.ofBits .f32 0x00000000#32 + _ = _
  rw [Ideal.ofBits_zero_f32, zero_add]
  simp only [val_main_v13_apply, idx13, message_eq]

/-- The bias column, spread along the batch rows, is read at the neuron's own position. -/
theorem idx15_19 (j : Fin 64) (n : Fin 262144) : idx_main_v15 (idx_main_v19 (ix2 j n)) = ix1 j :=
  funext fun a => Fin.ext (by match a with | ⟨0, _⟩ => rfl)
/-- The response column, spread along the batch rows, is read at the neuron's own position. -/
theorem idx16_17 (j : Fin 64) (n : Fin 262144) : idx_main_v16 (idx_main_v17 (ix2 j n)) = ix1 j :=
  funext fun a => Fin.ext (by match a with | ⟨0, _⟩ => rfl)

/-- The pre-activation of neuron `j` for row `n`: the bias plus the response times the aggregate. -/
theorem preact_eq (x0 : FVec Ideal S262144x4 .f32) (x1 : FVec Ideal S262144x64 .f32) (x2 : FVec Ideal S384 .f32)
    (x3 x4 : FVec Ideal S64 .f32) (x5 x6 : IVec S384 32) (j : Fin 64) (n : Fin 262144) :
    val_main_v20 (F := Ideal) x0 x1 x2 x3 x4 x5 x6 (ix2 j n)
      = x3 (ix1 j) + x4 (ix1 j) * Cert.Step.agg x0 x1 x2 x5 x6 n j := by
  rw [val_main_v20_apply, val_main_v19_apply, val_main_v15_apply, idx15_19, val_main_v18_apply, val_main_v17_apply,
    val_main_v16_apply, idx16_17, aggregate_eq]
  rfl

/-- Each of the three id comparisons, spread along the batch rows, reads the neuron's own id. -/
theorem idx21_call0 (j : Fin 64) (n : Fin 262144) : idx_main_v21 (idx_main_call0_v0 (ix2 j n)) = ix1 j :=
  funext fun a => Fin.ext (by match a with | ⟨0, _⟩ => rfl)
theorem idx21_call1 (j : Fin 64) (n : Fin 262144) : idx_main_v21 (idx_main_call1_v0 (ix2 j n)) = ix1 j :=
  funext fun a => Fin.ext (by match a with | ⟨0, _⟩ => rfl)
theorem idx21_call2 (j : Fin 64) (n : Fin 262144) : idx_main_v21 (idx_main_call2_v0 (ix2 j n)) = ix1 j :=
  funext fun a => Fin.ext (by match a with | ⟨0, _⟩ => rfl)

/-- The word of the float one is the real number one. -/
theorem one_word : Ideal.ofBits .f32 0x3F800000#32 = 1 := by
  simp [Ideal.ofBits, Ideal.ieee, -EReal.coe_mul]; norm_num

/-- The quotient `1 / (1 + exp (-x))` is the logistic function. -/
theorem logistic_eq (x0 : FVec Ideal S262144x4 .f32) (x1 : FVec Ideal S262144x64 .f32) (x2 : FVec Ideal S384 .f32)
    (x3 x4 : FVec Ideal S64 .f32) (x5 x6 : IVec S384 32) (i : S64x262144.Idx) :
    val_main_v29 (F := Ideal) x0 x1 x2 x3 x4 x5 x6 i
      = Ideal.logistic (val_main_v20 (F := Ideal) x0 x1 x2 x3 x4 x5 x6 i) := by
  rw [val_main_v29_apply, val_main_v28_apply, val_main_cst_3_apply, val_main_v27_apply, val_main_v26_apply,
    val_main_cst_2_apply, val_main_v25_apply, val_main_v24_apply]
  show Ideal.div (Ideal.ofBits .f32 0x3F800000#32) (Ideal.ofBits .f32 0x3F800000#32 + Ideal.exp (-_)) = _
  rw [one_word]
  rfl

/-- The chain of selects picks the neuron's activation function by its id. -/
theorem activated_eq (x0 : FVec Ideal S262144x4 .f32) (x1 : FVec Ideal S262144x64 .f32) (x2 : FVec Ideal S384 .f32)
    (x3 x4 : FVec Ideal S64 .f32) (x5 x6 : IVec S384 32) (x7 : IVec S64 32) (j : Fin 64) (n : Fin 262144) :
    val_main_v39 (F := Ideal) x0 x1 x2 x3 x4 x5 x6 x7 (ix2 j n)
      = Cert.Step.state x0 x1 x2 x3 x4 x5 x6 x7 n j := by
  rw [val_main_v39_apply, val_main_call2_v0_apply, val_main_v23_apply, val_main_v21_apply, idx21_call2,
    val_main_v22_apply, val_main_c_1_apply, logistic_eq,
    val_main_v38_apply, val_main_call1_v0_apply, val_main_v31_apply, val_main_v21_apply, idx21_call1,
    val_main_v30_apply, val_main_c_4_apply, val_main_v32_apply,
    val_main_v37_apply, val_main_call0_v0_apply, val_main_v34_apply, val_main_v21_apply, idx21_call0,
    val_main_v33_apply, val_main_c_5_apply, val_main_v35_apply, val_main_v36_apply, preact_eq]
  rfl

/-- Exchanging the axes back: row `n`, neuron `j` of the state is neuron `j`, row `n` of the activated array. -/
theorem idx40 (n : Fin 262144) (j : Fin 64) : idx_main_v40 (ix2 n j) = ix2 j n :=
  funext fun a => Fin.ext (by match a with | ⟨0, _⟩ => rfl | ⟨1, _⟩ => rfl)

/-- The new state array: the activated values, rows and neurons exchanged back. -/
theorem val_state (x0 : FVec Ideal S262144x4 .f32) (x1 : FVec Ideal S262144x64 .f32) (x2 : FVec Ideal S384 .f32)
    (x3 x4 : FVec Ideal S64 .f32) (x5 x6 : IVec S384 32) (x7 : IVec S64 32) :
    val_main_v40 (F := Ideal) x0 x1 x2 x3 x4 x5 x6 x7 = Cert.Step.stateArr x0 x1 x2 x3 x4 x5 x6 x7 := by
  funext i
  obtain ⟨n, j, rfl⟩ : ∃ (n : Fin 262144) (j : Fin 64), i = ix2 n j := ⟨i 0, i 1, eq_ix2 i⟩
  rw [val_main_v40_apply, idx40, activated_eq]
  rfl

/-- The slice's column `c` is the state's column `c + 60`. -/
theorem idx41 (n : Fin 262144) (c : Fin 4) :
    idx_main_v41 (ix2 n c) = ix2 n (⟨c.val + 60, by omega⟩ : Fin 64) :=
  funext fun a => Fin.ext (by
    match a with
    | ⟨0, _⟩ => rfl
    | ⟨1, _⟩ => show 60 + c.val = c.val + 60; omega)

/-- The output: the last four neurons' states. -/
theorem val_out (x0 : FVec Ideal S262144x4 .f32) (x1 : FVec Ideal S262144x64 .f32) (x2 : FVec Ideal S384 .f32)
    (x3 x4 : FVec Ideal S64 .f32) (x5 x6 : IVec S384 32) (x7 : IVec S64 32) :
    val_main_v41 (F := Ideal) x0 x1 x2 x3 x4 x5 x6 x7 = Cert.Step.outArr x0 x1 x2 x3 x4 x5 x6 x7 := by
  funext i
  obtain ⟨n, c, rfl⟩ : ∃ (n : Fin 262144) (c : Fin 4), i = ix2 n c := ⟨i 0, i 1, eq_ix2 i⟩
  rw [val_main_v41_apply, idx41, val_state]
  rfl

end Cert.ReferenceIdeal.RefStep

end
-- ==== Proof.PreFacts.lean ====
/-
  What the precondition says of the argument arrays, read back.

  The precondition is a conjunction of seven "every element satisfies ..." statements, each computed as an
  and-reduction of an array of truth words into one word, and the claim is that the final word is 1. Five of them say
  of a float array that every |x| is below the value of the pattern 0x7F800000, which is +∞ on the extended reals;
  |x| < +∞ excludes both infinities, so x is a real. Two say of an integer array that every word, read signed, lies
  in a half-open range [lo, hi): for the edges' source words [-68, 68) (the pattern 4294967228 is -68 read signed),
  for their destination words [0, 64).
-/
import proofs.«403867_j53893249630523_1_alg».proof.Pre_finite_inputs
import Idealize.ShloMosaic.Lib.ReduceAll
import Idealize.ShloMosaic.Lib.ValueIdx
import Idealize.ShloMosaic.PureOps.Ideal.Laws

noncomputable section

namespace Cert.PreFacts

open Idealize.ShloMosaic Idealize.ShloMosaic.ValueIdx Cert.Pre_finite_inputs

/-- The shape of a single word has exactly one index. -/
instance : Subsingleton S_.Idx := ⟨fun a b => funext fun d => d.elim0⟩

/-- The pattern 0x7F800000 (sign 0, exponent all ones, fraction 0) denotes +∞. -/
theorem inf_pattern : Ideal.ofBits .f32 0x7F800000#32 = (⊤ : EReal) := by
  simp [Ideal.ofBits, Ideal.ieee]

/-- An extended real whose absolute value max x (-x) is strictly below +∞ is a real: +∞ has |x| = +∞, and so has -∞. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The strict comparison of two extended reals gives the word 1 exactly when the first is below the second. -/
theorem cmp_olt_eq_one {x y : EReal} : Ideal.cmp .olt x y = 1#1 ↔ x < y := by
  unfold Ideal.cmp
  by_cases hxy : x < y <;> simp [hxy]

/-- A float array of any shape whose "all |x| below the +∞ pattern" word is 1 holds only reals: the and-reduction
    into one word is 1 only if every compared element gave 1, and the element's comparison is |x i| < +∞. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant S_ .f32 0x7F800000#32)))
          (constantI S_ 1 1#1) hr hu ix0 = 1#1)
    (i : s.Idx) : ∃ r : ℝ, x i = (r : EReal) := by
  have hi := Host.reduce_andi_all _ _ hr hu ix0 e i
  have hc : Ideal.cmp .olt (max (x i) (-(x i))) (Ideal.ofBits .f32 0x7F800000#32) = 1#1 := hi
  rw [inf_pattern, cmp_olt_eq_one] at hc
  exact real_of_abs_lt_top (x i) hc

/-- An integer array of any shape whose "all lo ≤ a and a < hi, signed" word is 1 has every word, read signed, in
    [lo, hi): again every element of the reduced array is 1, an element is the and of the two comparisons, and a signed
    comparison that gives 1 is the order of the signed readings. -/
theorem range_of_all {s : Shape} {axes : List (Fin s.rank)} (a : IVec s 32) (lo hi : BitVec 32)
    (hb hb' : S_.BroadcastsInDim s (![] : Fin 0 → Fin s.rank)) (hr : s.ReducesTo axes S_) (hu : 0 < S_.numel)
    (e : Host.reduce IntOp.andi
          (andi (cmpi .sge a (broadcastInDim s ![] hb (constantI S_ 32 lo)))
            (cmpi .slt a (broadcastInDim s ![] hb' (constantI S_ 32 hi))))
          (constantI S_ 1 1#1) hr hu ix0 = 1#1)
    (i : s.Idx) : lo.toInt ≤ (a i).toInt ∧ (a i).toInt < hi.toInt := by
  have hi' := Host.reduce_andi_all _ _ hr hu ix0 e i
  have hc : IntOp.andi (IntOp.cmpi .sge (a i) lo) (IntOp.cmpi .slt (a i) hi) = 1#1 := hi'
  obtain ⟨h1, h2⟩ := IntOp.andi_eq_one.1 hc
  exact ⟨IntOp.cmpi_sge.1 h1, IntOp.cmpi_slt.1 h2⟩

/-- The pattern 4294967228 read signed is -68; 68, 0 and 64 read signed are themselves. -/
theorem lo_src : (4294967228#32 : BitVec 32).toInt = -68 := by decide
theorem hi_src : (68#32 : BitVec 32).toInt = 68 := by decide
theorem lo_dst : (0#32 : BitVec 32).toInt = 0 := by decide
theorem hi_dst : (64#32 : BitVec 32).toInt = 64 := by decide

/-- THE PRECONDITION READ BACK: the input, the previous state and the edge weights hold only reals; every edge's source
    word lies in [-68, 68) and every edge's destination word in [0, 64), read signed. The final word is the and of the
    seven reductions, nested to the left; the ones for the bias and the response (the fourth and fifth) are not used. -/
theorem of_pre [Cert.Pre_finite_inputs.Facts]
    (a0 : FVec Ideal S262144x4 .f32) (a1 : FVec Ideal S262144x64 .f32) (a2 : FVec Ideal S384 .f32) (a3 a4 : FVec Ideal S64 .f32)
    (a5 a6 : IVec S384 32) (a7 : IVec S64 32)
    (h : Cert.Pre_finite_inputs.fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal))
    ∧ (∀ e : Fin 384, -68 ≤ (a5 (ix1 e)).toInt ∧ (a5 (ix1 e)).toInt < 68)
    ∧ (∀ e : Fin 384, 0 ≤ (a6 (ix1 e)).toInt ∧ (a6 (ix1 e)).toInt < 64) := by
  have e := congrFun h ValueIdx.ix0
  dsimp only [fn, fn_part1, fn_part2] at e
  simp only [andi, IntOp.andi_eq_one] at e
  obtain ⟨⟨⟨⟨⟨⟨h0, h1⟩, h2⟩, -⟩, -⟩, h5⟩, h6⟩ := e
  refine ⟨real_of_all a0 _ _ _ h0, real_of_all a1 _ _ _ h1, real_of_all a2 _ _ _ h2, fun k => ?_, fun k => ?_⟩
  · have hk := range_of_all a5 4294967228#32 68#32 _ _ _ _ h5 (ix1 k)
    rw [lo_src, hi_src] at hk
    exact hk
  · have hk := range_of_all a6 0#32 64#32 _ _ _ _ h6 (ix1 k)
    rw [lo_dst, hi_dst] at hk
    exact hk

end Cert.PreFacts

end
-- ==== Proof.lean ====
/-
  The kernel advances a small recurrent network by one step for 262144 rows at once, 32 row tiles of 8192: per row n and
  neuron j it multiplies the row's 68 activations (4 inputs, 64 previous states) by column j of a dense 68 × 64 matrix
  that the host has built from the 384 weighted edges by a scatter-add, then applies the neuron's own activation
  function to bias j + response j × that product. The reference instead gathers, edge by edge, the activation column the
  edge reads, scales it by the edge's weight and sums the edges into their destination neuron.

  On the extended reals both compute `Cert.Step.state` (Proof/Step.lean), index by index:
  * the reference does so for every input (Proof/RefStep.lean);
  * the kernel's blocks tile its two result arrays with the dense form of the state (Proof/KernelPoint.lean for one
    entry of one block, Proof/KernelArray.lean for the arrays), whose operands read back to the arguments
    (Proof/KernelHost.lean);
  * the dense form is the edge form when the inputs, previous states and weights are real — distributing an
    activation over a column's collected weights is not sound at the infinities — and the edge words index in range:
    source words in [-68, 68) name one of the 68 columns after wrapping, destination words in [0, 64) one of the 64
    neurons (Proof/Bridge.lean, Proof/KernelStep.lean); the precondition says exactly this (Proof/PreFacts.lean).
  The three frames are the generated ones (the reference's from its generated run); the idealization rewrote nothing.
-/
import proofs.«403867_j53893249630523_1_alg».proof.Defs
import proofs.«403867_j53893249630523_1_alg».proof.Proof.Gen.Kernel
import proofs.«403867_j53893249630523_1_alg».proof.Proof.Gen.Kernel.Skeleton
import proofs.«403867_j53893249630523_1_alg».proof.Proof.Gen.Kernel.Launch
import proofs.«403867_j53893249630523_1_alg».proof.Proof.Gen.Kernel.Points
import proofs.«403867_j53893249630523_1_alg».proof.Proof.Gen.Kernel.Frame
import proofs.«403867_j53893249630523_1_alg».proof.Proof.Gen.KernelIdeal
import proofs.«403867_j53893249630523_1_alg».proof.Proof.Gen.KernelIdeal.Skeleton
import proofs.«403867_j53893249630523_1_alg».proof.Proof.Gen.KernelIdeal.Launch
import proofs.«403867_j53893249630523_1_alg».proof.Proof.Gen.KernelIdeal.Points
import proofs.«403867_j53893249630523_1_alg».proof.Proof.Gen.KernelIdeal.Frame
import proofs.«403867_j53893249630523_1_alg».proof.Proof.Gen.ReferenceIdeal
import proofs.«403867_j53893249630523_1_alg».proof.Proof.Gen.Pre_finite_inputs
import proofs.«403867_j53893249630523_1_alg».proof.Proof.Gen.KernelIdeal.Value
import proofs.«403867_j53893249630523_1_alg».proof.Proof.Gen.ReferenceIdeal.Run
import proofs.«403867_j53893249630523_1_alg».proof.Proof.Gen.ReferenceIdeal.Read
import proofs.«403867_j53893249630523_1_alg».proof.Proof.KernelStep
import proofs.«403867_j53893249630523_1_alg».proof.Proof.RefStep
import proofs.«403867_j53893249630523_1_alg».proof.Proof.PreFacts
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the arguments, the kernel and the reference both end with the output array at
    `Cert.Step.outArr` and the state array at `Cert.Step.stateArr` of the arguments. -/
theorem algebraic : Cert.algebraic_KernelIdeal_ReferenceIdeal := by
  intro m ρ m' ρ' hpre hagree
  refine ⟨fun c => Cert.Step.outArr (Cert.KernelIdeal.Arr.a0 m c) (Cert.KernelIdeal.Arr.a1 m c) (Cert.KernelIdeal.Arr.a2 m c)
      (Cert.KernelIdeal.Arr.a3 m c) (Cert.KernelIdeal.Arr.a4 m c) (Cert.KernelIdeal.Arr.a5 m c) (Cert.KernelIdeal.Arr.a6 m c)
      (Cert.KernelIdeal.Arr.a7 m c),
    fun c => Cert.Step.stateArr (Cert.KernelIdeal.Arr.a0 m c) (Cert.KernelIdeal.Arr.a1 m c) (Cert.KernelIdeal.Arr.a2 m c)
      (Cert.KernelIdeal.Arr.a3 m c) (Cert.KernelIdeal.Arr.a4 m c) (Cert.KernelIdeal.Arr.a5 m c) (Cert.KernelIdeal.Arr.a6 m c)
      (Cert.KernelIdeal.Arr.a7 m c), ?_, ?_⟩
  · -- the kernel: its blocks tile the arrays with the dense state, which is the specification's under the precondition
    refine (θ_run Cert.KernelIdeal.defs _ _).mono (fun r h c => ?_) (Cert.KernelIdeal.Value.run_blocks m ρ)
    obtain ⟨f0, f1, f2, f5, f6⟩ := Cert.PreFacts.of_pre _ _ _ _ _ _ _ _ (hpre c)
    refine ⟨(h c).1.trans ?_, (h c).2.1.trans ?_, (h c).2.2⟩
    · rw [Cert.KernelIdeal.Arr.final7]
      funext i
      exact Cert.KernelIdeal.Arr.kstate_eq m c f0 f1 f2 f5 f6 _ _
    · rw [Cert.KernelIdeal.Arr.final8]
      funext i
      exact Cert.KernelIdeal.Arr.kstate_eq m c f0 f1 f2 f5 f6 _ _
  · -- the reference: its run's two terms are the specification at its own arguments, which agree with the kernel's
    refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v41_eq, Cert.ReferenceIdeal.RefStep.val_out, (hagree c).1, (hagree c).2.1,
        (hagree c).2.2.1, (hagree c).2.2.2.1, (hagree c).2.2.2.2.1, (hagree c).2.2.2.2.2.1, (hagree c).2.2.2.2.2.2.1,
        (hagree c).2.2.2.2.2.2.2]
    · rw [Cert.ReferenceIdeal.Read.val_main_v40_eq, Cert.ReferenceIdeal.RefStep.val_state, (hagree c).1, (hagree c).2.1,
        (hagree c).2.2.1, (hagree c).2.2.2.1, (hagree c).2.2.2.2.1, (hagree c).2.2.2.2.2.1, (hagree c).2.2.2.2.2.2.1,
        (hagree c).2.2.2.2.2.2.2]

/-- The certificate's claim: the three frames, the (empty) idealization ledger, and the equality of the results. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
